-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xF149F2CA#32 ⊥
  ∧ IdealRules.named_const.Statement Cert.KernelIdeal.κ "pos_big" .f32 0x7149F2CA#32 ⊤
  ∧ IdealRules.named_const.Statement Cert.KernelIdeal.κ "pos_big" .f32 0x7149F2CA#32 ⊤
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S100000x128 : Shape := ⟨2, ![100000, 128]⟩
abbrev S2048 : Shape := ⟨1, ![2048]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2048x128 .f32) (main_arg1 : FVec F S100000x128 .f32) (main_arg2 : IVec S2048 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg2 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_c_4 : IVec S_ 32 := constantI S_ 32 100000#32
  let main_v13 : IVec S2048 32 := broadcastInDim S2048 ![] bcast_S_S2048 main_c_4
  let main_v14 : IVec S2048 1 := cmpi .slt main_arg2 main_v13
  let main_c_5 : IVec S_ 1 := constantI S_ 1 1#1
  let main_v15 : IVec S_ 1 := (fun x v => Host.reduce IntOp.andi x v reducesTo_S2048_S_d0 h_S_) main_v14 main_c_5
  fn_part1 (F := F) main_v12 main_v15
-- ==== Kernel.lean ====
abbrev S2048x128 : Shape := ⟨2, ![2048, 128]⟩
abbrev S100000x128 : Shape := ⟨2, ![100000, 128]⟩
abbrev S2048 : Shape := ⟨1, ![2048]⟩
abbrev S2048x1 : Shape := ⟨2, ![2048, 1]⟩
abbrev S512x128 : Shape := ⟨2, ![512, 128]⟩
abbrev S2000x128 : Shape := ⟨2, ![2000, 128]⟩
abbrev S512x1 : Shape := ⟨2, ![512, 1]⟩
abbrev S2000 : Shape := ⟨1, ![2000]⟩
abbrev S2000x1 : Shape := ⟨2, ![2000, 1]⟩
abbrev S512x2000 : Shape := ⟨2, ![512, 2000]⟩
abbrev S1x2000 : Shape := ⟨2, ![1, 2000]⟩
abbrev S512 : Shape := ⟨1, ![512]⟩
abbrev S_ : Shape := ⟨0, ![]⟩

abbrev nBuf : Space → Nat
  | .hbm => 19
  | .vmem => 10
  | .smem => 0
  | _ => 0

abbrev bufTy : (tb : Table) → Fin (tcTables nBuf tb) → BufTy
  | .hbm, ⟨0, _⟩ => ⟨S2048x128, .f32⟩
  | .hbm, ⟨1, _⟩ => ⟨S100000x128, .f32⟩
  | .hbm, ⟨2, _⟩ => ⟨S2048, .i32⟩
  | .hbm, ⟨3, _⟩ => ⟨S2048x1, .i32⟩
  | .hbm, ⟨4, _⟩ => ⟨S2048x1, .f32⟩
  | .hbm, ⟨5, _⟩ => ⟨S2048x1, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S2000x128, .f32⟩
  | .local _ .vmem, ⟨3, _⟩ => ⟨S2000x128, .f32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048_S2048x1 : S2048.ShapeCasts S2048x1
  inb_S512x1_S512x1_0_0 : ∀ a, (![0, 0] : Fin 2 → Nat) a + S512x1.size a ≤ S512x1.size a
  h_S512x1 : 0 < S512x1.numel
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  broadcasts_S2000x1_S2000x128 : S2000x1.Broadcasts S2000x128
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  iota_S1x2000_d1_w32 : S1x2000.Iotas .tc 32 [1]
  shapeCasts_S512x1_S512x1 : S512x1.ShapeCasts S512x1
  broadcasts_S512x1_S512x2000 : S512x1.Broadcasts S512x2000
  broadcasts_S1x2000_S512x2000 : S1x2000.Broadcasts S512x2000
  reduces_S512x2000_S512 : S512x2000.Reduces [1] S512
  shapeCasts_S512_S512x1 : S512.ShapeCasts S512x1
  shapeCasts_S2048x1_S2048 : S2048x1.ShapeCasts S2048
  bcast_S_S2048 : S_.BroadcastsInDim S2048 (![] : Fin 0 → Fin S2048.rank)
  reducesTo_S2048_S_d0 : S2048.ReducesTo [0] S_
  h_S_ : 0 < S_.numel
  dot_S512x128_S2000x128_S512x2000_1_1_0_0_n_n_wf : DotDims.WF S512x128 S2000x128 S512x2000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S2048x128.size a
  hwx0_0 : ∀ i : grid0.Coords, EltTy.bits .f32 = 32 ∨ (Rect.block (s := S2048x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S2048x1.size a
  hwx0_2 : ∀ i : grid0.Coords, EltTy.bits .i32 = 32 ∨ (Rect.block (s := S2048x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S2048x1.size a
  hwx0_3 : ∀ i : grid0.Coords, EltTy.bits .f32 = 32 ∨ (Rect.block (s := S2048x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S2048x1.size a
  hwx0_4 : ∀ i : grid0.Coords, EltTy.bits .f32 = 32 ∨ (Rect.block (s := S2048x1) S512x1.size (cc0_transform_4 i) (hinb0_4 i)).WholeWords (EltTy.packing .f32)

variable [Facts₀]

def dot_S512x128_S2000x128_S512x2000_1_1_0_0_n_n : DotDims S512x128 S2000x128 S512x2000 where
  lhsContracting := [1]
  rhsContracting := [1]
  lhsNonContracting := [0]
  rhsNonContracting := [0]
  lhsBatch := []
  rhsBatch := []
  wf := dot_S512x128_S2000x128_S512x2000_1_1_0_0_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x128 : Shape := ⟨2, ![2048, 128]⟩
abbrev S100000x128 : Shape := ⟨2, ![100000, 128]⟩
abbrev S2048 : Shape := ⟨1, ![2048]⟩
abbrev S_ : Shape := ⟨0, ![]⟩
abbrev S100000 : Shape := ⟨1, ![100000]⟩
abbrev S100000x1 : Shape := ⟨2, ![100000, 1]⟩
abbrev S128x100000 : Shape := ⟨2, ![128, 100000]⟩
abbrev S2048x100000 : Shape := ⟨2, ![2048, 100000]⟩
abbrev S2048x1 : Shape := ⟨2, ![2048, 1]⟩
abbrev S2048x2 : Shape := ⟨2, ![2048, 2]⟩

abbrev nBuf : Space → Nat
  | .hbm => 70
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S100000x128, .f32⟩
  | .hbm, ⟨2, _⟩ => ⟨S2048, .i32⟩
  | .hbm, ⟨3, _⟩ => ⟨S100000x128, .f32⟩
  | .hbm, ⟨4, _⟩ => ⟨S_, .f32⟩
  | .hbm, ⟨5, _⟩ => ⟨S100000, .f32⟩
  | .hbm, ⟨6, _⟩ => ⟨S100000x1, .f32⟩
  | .hbm, ⟨7, _⟩ => ⟨S100000x1, .f32⟩
  | .hbm, ⟨8, _⟩ => ⟨S100000x128, .f32⟩
  | .hbm, ⟨9, _⟩ => ⟨S100000x128, .f32⟩
  | .hbm, ⟨10, _⟩ => ⟨S128x100000, .f32⟩
  | .hbm, ⟨11, _⟩ => ⟨S2048x100000, .f32⟩
  | .hbm, ⟨12, _⟩ => ⟨S_, .f32⟩
  | .hbm, ⟨13, _⟩ => ⟨S2048x100000, .f32⟩
  | .hbm, ⟨14, _⟩ => ⟨S2048x100000, .f32⟩
  | .hbm, ⟨15, _⟩ => ⟨S_, .f32⟩
  | .hbm, ⟨16, _⟩ => ⟨S2048x100000, .f32⟩
  | .hbm, ⟨17, _⟩ => ⟨S2048x100000, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048x1, .i32⟩
  | .hbm, ⟨34, _⟩ => ⟨S2048x1, .i32⟩
  | .hbm, ⟨35, _⟩ => ⟨S2048x2, .i32⟩
  | .hbm, ⟨36, _⟩ => ⟨S2048, .f32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S_, .i32⟩
  | .hbm, ⟨45, _⟩ => ⟨S2048, .i32⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S2048x1, .i32⟩
  | .hbm, ⟨52, _⟩ => ⟨S2048x1, .i32⟩
  | .hbm, ⟨53, _⟩ => ⟨S2048x2, .i32⟩
  | .hbm, ⟨54, _⟩ => ⟨S_, .f32⟩
  | .hbm, ⟨55, _⟩ => ⟨S2048, .f32⟩
  | .hbm, ⟨56, _⟩ => ⟨S2048x100000, .f32⟩
  | .hbm, ⟨57, _⟩ => ⟨S_, .f32⟩
  | .hbm, ⟨58, _⟩ => ⟨S2048, .f32⟩
  | .hbm, ⟨59, _⟩ => ⟨S_, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call1_cst : Ref sig .tc := ⟨.hbm, 63, rfl⟩
abbrev main_call1_v0 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S100000x128_S128x100000_1_0 : S100000x128.Transposes [1, 0] S128x100000
  bcast_S_S2048x100000 : S_.BroadcastsInDim S2048x100000 (![] : Fin 0 → Fin S2048x100000.rank)
  bcast_S_S2048 : S_.BroadcastsInDim S2048 (![] : Fin 0 → Fin S2048.rank)
  bcast_S2048_S2048x1_0 : S2048.BroadcastsInDim S2048x1 (![0] : Fin 1 → Fin S2048x1.rank)
  concatenates_S2048x1_S2048x1_S2048x2_d1 : Shape.Concatenates [S2048x1, S2048x1] S2048x2 1
  reducesTo_S2048x100000_S2048_d1 : S2048x100000.ReducesTo [1] S2048
  reducesTo_S2048_S_d0 : S2048.ReducesTo [0] S_
  dot_S2048x128_S128x100000_S2048x100000_1_0_0_1_n_n_wf : DotDims.WF S2048x128 S128x100000 S2048x100000 [1] [0] [0] [1] [] []
  gather_S2048x100000_S2048x2_S2048_n_01_n_n_01_1_11_wf : GatherDims.WF S2048x100000 S2048x2 S2048 [] [0, 1] [] [0, 1] [] 1 ![1, 1]
  scatter_S2048x100000_S2048x2_S2048_n_01_01_1_wf : ScatterDims.WF S2048x100000 S2048x2 S2048 [] [0, 1] [0, 1] 1

variable [Facts₀]

def dot_S2048x128_S128x100000_S2048x100000_1_0_0_1_n_n : DotDims S2048x128 S128x100000 S2048x100000 where
  lhsContracting := [1]
  rhsContracting := [0]
  lhsNonContracting := [0]
  rhsNonContracting := [1]
  lhsBatch := []
  rhsBatch := []
  wf := dot_S2048x128_S128x100000_S2048x100000_1_0_0_1_n_n_wf
def gather_S2048x100000_S2048x2_S2048_n_01_n_n_01_1_11 : GatherDims S2048x100000 S2048x2 S2048 where
  offsetDims := []
  collapsedSliceDims := [0, 1]
  operandBatchingDims := []
  startIndicesBatchingDims := []
  startIndexMap := [0, 1]
  indexVectorDim := 1
  sliceSizes := ![1, 1]
  wf := gather_S2048x100000_S2048x2_S2048_n_01_n_n_01_1_11_wf
def scatter_S2048x100000_S2048x2_S2048_n_01_01_1 : ScatterDims S2048x100000 S2048x2 S2048 where
  updateWindowDims := []
  insertedWindowDims := [0, 1]
  scatterDimsToOperandDims := [0, 1]
  indexVectorDim := 1
  wf := scatter_S2048x100000_S2048x2_S2048_n_01_01_1_wf

class Facts : Prop extends Facts₀ where

variable [Facts]
-- ==== Proof.FoldLemmas.lean ====
/-
  Folds of the maximum and of the minimum over the extended reals.

  * A maximum, taken from `-∞`, of a family that is `-∞` everywhere but at one index is the entry at that index.
  * The classes below `(ci + 1) * 2000` are the classes below `ci * 2000` together with the 2000 classes
    `ci * 2000 + j`: so the maximum (minimum) over the longer prefix is the maximum (minimum) of the one over the
    shorter prefix and the one over that tile.

  Each equation is read through the universal property of the fold (a bound of the fold is a bound of the start
  value and of every entry), so no set is ever enumerated.
-/
import Mathlib.Data.Finset.Fold
import Mathlib.Data.Fintype.Basic
import Mathlib.Data.EReal.Basic

namespace Cert.ProxyTriplet.Fold

/-- The maximum from `-∞` of a family with at most one entry above `-∞` is that entry. -/
theorem fold_max_eq_of_single {ι : Type} [DecidableEq ι] (s : Finset ι) (f : ι → EReal) (a : ι) (ha : a ∈ s)
    (hf : ∀ x ∈ s, x ≠ a → f x = ⊥) : s.fold max ⊥ f = f a := by
  apply le_antisymm
  · -- every entry is `f a` or `-∞`
    rw [Finset.fold_max_le]
    refine ⟨bot_le, fun x hx => ?_⟩
    by_cases hxa : x = a
    · rw [hxa]
    · rw [hf x hx hxa]; exact bot_le
  · -- and `f a` is one of the entries
    rw [Finset.le_fold_max]
    exact Or.inr ⟨a, ha, le_rfl⟩

/-- Membership in a prefix of the classes. -/
private theorem mem_prefix (n : ℕ) (c : Fin 100000) :
    c ∈ (Finset.univ.filter fun c : Fin 100000 => c.val < n) ↔ c.val < n := by
  rw [Finset.mem_filter]; exact ⟨fun h => h.2, fun h => ⟨Finset.mem_univ _, h⟩⟩

/-- The prefix ending after tile `ci`: its maximum is the maximum of the prefix ending before the tile and of the tile. -/
theorem fold_max_prefix_tile (f : Fin 100000 → EReal) (ci : ℕ) (hci : ci < 50) :
    (Finset.univ.filter fun c : Fin 100000 => c.val < (ci + 1) * 2000).fold max ⊥ f
      = max ((Finset.univ.filter fun c : Fin 100000 => c.val < ci * 2000).fold max ⊥ f)
          ((Finset.univ : Finset (Fin 2000)).fold max ⊥ fun j => f ⟨ci * 2000 + j.val, by have := j.isLt; omega⟩) := by
  -- both sides have the same upper bounds
  refine eq_of_forall_ge_iff fun c => ?_
  rw [max_le_iff, Finset.fold_max_le, Finset.fold_max_le, Finset.fold_max_le]
  constructor
  · rintro ⟨_, h⟩
    refine ⟨⟨bot_le, fun x hx => h x ?_⟩, ⟨bot_le, fun j _ => h _ ?_⟩⟩
    · -- a class of the shorter prefix is in the longer one
      rw [mem_prefix] at hx ⊢; omega
    · -- a class of the tile is in the longer prefix
      rw [mem_prefix]; have := j.isLt; show ci * 2000 + j.val < (ci + 1) * 2000; omega
  · rintro ⟨⟨_, h1⟩, ⟨_, h2⟩⟩
    refine ⟨bot_le, fun x hx => ?_⟩
    rw [mem_prefix] at hx
    by_cases hlt : x.val < ci * 2000
    · exact h1 x ((mem_prefix _ _).2 hlt)
    · -- a class of the longer prefix that is not in the shorter one is the tile's class `x - ci * 2000`
      have hj : x.val - ci * 2000 < 2000 := by omega
      refine le_of_eq_of_le (congrArg f (Fin.ext ?_)) (h2 ⟨x.val - ci * 2000, hj⟩ (Finset.mem_univ _))
      show x.val = ci * 2000 + (x.val - ci * 2000)
      omega

/-- The same for the minimum, from `+∞`. -/
theorem fold_min_prefix_tile (f : Fin 100000 → EReal) (ci : ℕ) (hci : ci < 50) :
    (Finset.univ.filter fun c : Fin 100000 => c.val < (ci + 1) * 2000).fold min ⊤ f
      = min ((Finset.univ.filter fun c : Fin 100000 => c.val < ci * 2000).fold min ⊤ f)
          ((Finset.univ : Finset (Fin 2000)).fold min ⊤ fun j => f ⟨ci * 2000 + j.val, by have := j.isLt; omega⟩) := by
  -- both sides have the same lower bounds
  refine eq_of_forall_le_iff fun c => ?_
  rw [le_min_iff, Finset.le_fold_min, Finset.le_fold_min, Finset.le_fold_min]
  constructor
  · rintro ⟨_, h⟩
    refine ⟨⟨le_top, fun x hx => h x ?_⟩, ⟨le_top, fun j _ => h _ ?_⟩⟩
    · rw [mem_prefix] at hx ⊢; omega
    · rw [mem_prefix]; have := j.isLt; show ci * 2000 + j.val < (ci + 1) * 2000; omega
  · rintro ⟨⟨_, h1⟩, ⟨_, h2⟩⟩
    refine ⟨le_top, fun x hx => ?_⟩
    rw [mem_prefix] at hx
    by_cases hlt : x.val < ci * 2000
    · exact h1 x ((mem_prefix _ _).2 hlt)
    · have hj : x.val - ci * 2000 < 2000 := by omega
      refine le_of_le_of_eq (h2 ⟨x.val - ci * 2000, hj⟩ (Finset.mem_univ _)) (congrArg f (Fin.ext ?_))
      show ci * 2000 + (x.val - ci * 2000) = x.val
      omega

end Cert.ProxyTriplet.Fold
-- ==== Proof.Spec.lean ====
/-
  The mathematics of the proxy triplet loss, stated once over the extended reals and over literal shapes, with no
  program in sight.

  For an embedding row `e` and a proxy row `p` (both of length 128) the squared distance on the unit sphere is
  `2 - 2 * ∑ k, e k * (p k / sqrt (∑ k', p k' * p k'))`: the proxy row is normalised by its Euclidean norm first.
  For batch row `b` with label `l b`:
    * the POSITIVE distance is the distance to the labelled class: the maximum over all classes `c` of the
      candidate that is the distance where `c` is the label and `-∞` elsewhere (the maximum of a family with one
      entry above `-∞` is that entry);
    * the NEGATIVE distance is the minimum over all classes of the candidate that is `+∞` at the label and the
      distance elsewhere.
  The loss is the mean over the batch of `max (pos + 0.2 - neg) 0`.

  Both folds are also stated over a prefix `{c | c < n}` of the classes, and a prefix that ends at a multiple of
  2000 splits into the shorter prefix and one tile of 2000 classes: a running maximum (minimum) over tiles of 2000
  classes is the maximum (minimum) over all classes.
-/
import Idealize.ShloMosaic.PureOps.Ideal
import Idealize.ShloMosaic.PureOps.Ideal.Laws
import Idealize.ShloMosaic.Lib.ValueIdx
import proofs.«425525_j83502754169123_1_alg».proof.Proof.FoldLemmas

noncomputable section

open scoped BigOperators

namespace Cert.ProxyTriplet

open Idealize.ShloMosaic Idealize.ShloMosaic.ValueIdx

abbrev SE : Shape := ⟨2, ![2048, 128]⟩
abbrev SP : Shape := ⟨2, ![100000, 128]⟩
abbrev SL : Shape := ⟨1, ![2048]⟩
abbrev S0 : Shape := ⟨0, ![]⟩

/-- The literal `2.0` both programs carry (never evaluated: the same word on both sides). -/
abbrev two : EReal := Ideal.ofBits .f32 0x40000000#32

/-- The distance between an embedding row and a proxy row, the proxy row normalised first. -/
def rowDist (e p : Fin 128 → EReal) : EReal :=
  two - two * ∑ k : Fin 128, e k * Ideal.div (p k) (Ideal.sqrt (∑ k' : Fin 128, p k' * p k'))

/-- The distance matrix: batch row `b` against class `c`. -/
def dist (E : SE.Idx → EReal) (P : SP.Idx → EReal) (b : Fin 2048) (c : Fin 100000) : EReal :=
  rowDist (fun k => E (ix2 b k)) (fun k => P (ix2 c k))

/-- The positive candidate: the distance at the labelled class, `-∞` elsewhere. -/
def posCand (E : SE.Idx → EReal) (P : SP.Idx → EReal) (Lb : SL.Idx → BitVec 32) (b : Fin 2048) (c : Fin 100000) : EReal :=
  if Lb (ix1 b) = BitVec.ofNat 32 c.val then dist E P b c else ⊥

/-- The negative candidate: `+∞` at the labelled class, the distance elsewhere. -/
def negCand (E : SE.Idx → EReal) (P : SP.Idx → EReal) (Lb : SL.Idx → BitVec 32) (b : Fin 2048) (c : Fin 100000) : EReal :=
  if Lb (ix1 b) = BitVec.ofNat 32 c.val then ⊤ else dist E P b c

/-- The maximum of `f` over the classes below `n`, from `-∞`. -/
def maxBelow (f : Fin 100000 → EReal) (n : ℕ) : EReal :=
  (Finset.univ.filter fun c : Fin 100000 => c.val < n).fold max ⊥ f

/-- The minimum of `f` over the classes below `n`, from `+∞`. -/
def minBelow (f : Fin 100000 → EReal) (n : ℕ) : EReal :=
  (Finset.univ.filter fun c : Fin 100000 => c.val < n).fold min ⊤ f

/-- The positive distance of batch row `b`. -/
def pos (E : SE.Idx → EReal) (P : SP.Idx → EReal) (Lb : SL.Idx → BitVec 32) (b : Fin 2048) : EReal :=
  (Finset.univ : Finset (Fin 100000)).fold max ⊥ (posCand E P Lb b)

/-- The smallest distance of batch row `b` to a class that is not its label. -/
def minNeg (E : SE.Idx → EReal) (P : SP.Idx → EReal) (Lb : SL.Idx → BitVec 32) (b : Fin 2048) : EReal :=
  (Finset.univ : Finset (Fin 100000)).fold min ⊤ (negCand E P Lb b)

/-- Every label is a class index: as a signed word it lies in `[0, 100000)`. -/
def LabelsOk (Lb : SL.Idx → BitVec 32) : Prop :=
  ∀ b : Fin 2048, 0 ≤ (Lb (ix1 b)).toInt ∧ (Lb (ix1 b)).toInt < 100000

/-! ## Prefixes and tiles -/

theorem maxBelow_zero (f : Fin 100000 → EReal) : maxBelow f 0 = ⊥ := by
  unfold maxBelow
  rw [Finset.filter_false_of_mem (fun c _ => Nat.not_lt_zero _), Finset.fold_empty]

theorem minBelow_zero (f : Fin 100000 → EReal) : minBelow f 0 = ⊤ := by
  unfold minBelow
  rw [Finset.filter_false_of_mem (fun c _ => Nat.not_lt_zero _), Finset.fold_empty]

theorem maxBelow_all (f : Fin 100000 → EReal) : maxBelow f 100000 = (Finset.univ : Finset (Fin 100000)).fold max ⊥ f := by
  unfold maxBelow
  rw [Finset.filter_true_of_mem (fun c _ => c.isLt)]

theorem minBelow_all (f : Fin 100000 → EReal) : minBelow f 100000 = (Finset.univ : Finset (Fin 100000)).fold min ⊤ f := by
  unfold minBelow
  rw [Finset.filter_true_of_mem (fun c _ => c.isLt)]

/-- The prefix ending after tile `ci` is the prefix ending before it, joined with the tile's own maximum. -/
theorem maxBelow_tile (f : Fin 100000 → EReal) (ci : ℕ) (hci : ci < 50) :
    maxBelow f ((ci + 1) * 2000)
      = max (maxBelow f (ci * 2000))
          ((Finset.univ : Finset (Fin 2000)).fold max ⊥ fun j => f ⟨ci * 2000 + j.val, by have := j.isLt; omega⟩) := by
  unfold maxBelow
  exact Fold.fold_max_prefix_tile f ci hci

/-- The same for the minimum. -/
theorem minBelow_tile (f : Fin 100000 → EReal) (ci : ℕ) (hci : ci < 50) :
    minBelow f ((ci + 1) * 2000)
      = min (minBelow f (ci * 2000))
          ((Finset.univ : Finset (Fin 2000)).fold min ⊤ fun j => f ⟨ci * 2000 + j.val, by have := j.isLt; omega⟩) := by
  unfold minBelow
  exact Fold.fold_min_prefix_tile f ci hci

/-- Where row `b`'s label is the class `c0`, its positive distance is the distance to `c0`. -/
theorem pos_eq_dist (E : SE.Idx → EReal) (P : SP.Idx → EReal) (Lb : SL.Idx → BitVec 32) (b : Fin 2048) (c0 : Fin 100000)
    (h : Lb (ix1 b) = BitVec.ofNat 32 c0.val) : pos E P Lb b = dist E P b c0 := by
  unfold pos
  -- a class other than `c0` is another 32-bit word (both are below 2^32), so its candidate is `-∞`
  rw [Fold.fold_max_eq_of_single Finset.univ (posCand E P Lb b) c0 (Finset.mem_univ _) (fun x _ hx => by
    unfold posCand
    rw [if_neg]
    intro hx'
    apply hx
    have e := congrArg BitVec.toNat (hx'.symm.trans h)
    rw [BitVec.toNat_ofNat, BitVec.toNat_ofNat, Nat.mod_eq_of_lt (by have := x.isLt; omega),
      Nat.mod_eq_of_lt (by have := c0.isLt; omega)] at e
    exact Fin.ext e)]
  unfold posCand
  rw [if_pos h]

/-! ## The loss from the two distance vectors -/

/-- What both programs do with the positive and the negative distances: add the margin, subtract, clamp at zero,
    sum over the batch and divide by its size. Carried as one function and never opened. -/
def lossOf (hb : S0.BroadcastsInDim SL (![] : Fin 0 → Fin SL.rank)) (hr : SL.ReducesTo [0] S0) (hu : 0 < S0.numel)
    (p q : FVec Ideal SL .f32) : FVec Ideal S0 .f32 :=
  Host.divf (F := Ideal)
    (Host.reduceAdd (F := Ideal)
      (maximumf (F := Ideal)
        (subf (F := Ideal) (addf (F := Ideal) p (broadcastInDim SL ![] hb (constant (F := Ideal) S0 .f32 0x3E4CCCCD#32))) q)
        (broadcastInDim SL ![] hb (constant (F := Ideal) S0 .f32 0x00000000#32)))
      (constant (F := Ideal) S0 .f32 0x00000000#32) hr hu)
    (constant (F := Ideal) S0 .f32 0x45000000#32)

/-- The positive distances of all rows, as a vector. -/
def posVec (E : SE.Idx → EReal) (P : SP.Idx → EReal) (Lb : SL.Idx → BitVec 32) : SL.Idx → EReal :=
  fun i => pos E P Lb ⟨(i 0).val, (i 0).isLt⟩

/-- The negative distances of all rows, as a vector. -/
def negVec (E : SE.Idx → EReal) (P : SP.Idx → EReal) (Lb : SL.Idx → BitVec 32) : SL.Idx → EReal :=
  fun i => minNeg E P Lb ⟨(i 0).val, (i 0).isLt⟩

/-- The proxy triplet loss of the three argument arrays. -/
def loss (hb : S0.BroadcastsInDim SL (![] : Fin 0 → Fin SL.rank)) (hr : SL.ReducesTo [0] S0) (hu : 0 < S0.numel)
    (E : SE.Idx → EReal) (P : SP.Idx → EReal) (Lb : SL.Idx → BitVec 32) : FVec Ideal S0 .f32 :=
  lossOf hb hr hu (posVec E P Lb) (negVec E P Lb)

end Cert.ProxyTriplet

end
-- ==== Proof.PreDecode.lean ====
/-
  The precondition read back: besides the finiteness of the two float inputs it says that every label, as a signed
  32-bit word, is at least 0 and below 100000 — a class index.
-/
import proofs.«425525_j83502754169123_1_alg».proof.Pre_finite_inputs
import proofs.«425525_j83502754169123_1_alg».proof.Proof.Spec
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx Cert.Pre_finite_inputs Cert.ProxyTriplet

variable {F : FTy → Type} [FloatOps F] [Cert.Pre_finite_inputs.Facts]

/-- Under the precondition every label is a class index. -/
theorem labelsOk_of_pre (a0 : FVec F S2048x128 .f32) (a1 : FVec F S100000x128 .f32) (a2 : IVec S2048 32)
    (h : Cert.Pre_finite_inputs.fn (F := F) a0 a1 a2 = fun _ => 1#1) : LabelsOk a2 := by
  -- the scalar result has one index
  haveI : Subsingleton S_.Idx := ⟨fun a b => funext fun d => d.elim0⟩
  have h0 : Cert.Pre_finite_inputs.fn (F := F) a0 a1 a2 ix0 = 1#1 := congrFun h ix0
  unfold Cert.Pre_finite_inputs.fn Cert.Pre_finite_inputs.fn_part1 at h0
  -- the four conjuncts, and-ed left to right: ((floats0 ∧ floats1) ∧ labels ≥ 0) ∧ labels < 100000
  obtain ⟨h12, h15⟩ := IntOp.andi_eq_one.1 h0
  obtain ⟨_, h11⟩ := IntOp.andi_eq_one.1 h12
  intro b
  -- each of the two all-reductions holds at every index, in particular at b
  have hge := Host.reduce_andi_all _ _ _ _ _ h11 (ix1 b)
  have hlt := Host.reduce_andi_all _ _ _ _ _ h15 (ix1 b)
  -- a broadcast scalar reads the scalar: the comparisons are against the words 0 and 100000
  have hge' : (0#32 : BitVec 32).toInt ≤ (a2 (ix1 b)).toInt := IntOp.cmpi_sge.1 hge
  have hlt' : (a2 (ix1 b)).toInt < (100000#32 : BitVec 32).toInt := IntOp.cmpi_slt.1 hlt
  have e0 : (0#32 : BitVec 32).toInt = 0 := by decide
  have e1 : (100000#32 : BitVec 32).toInt = 100000 := by decide
  rw [e0] at hge'
  rw [e1] at hlt'
  exact ⟨hge', hlt'⟩

end Cert.Pre_finite_inputs.Decode

end
-- ==== Proof.KernelPay.lean ====
/-
  The kernel body's arithmetic, read at one element over the extended reals.

  At grid point (bi, ci) the body sees a block of 512 embedding rows `x0`, a tile of 2000 proxy rows `x1` and the
  512 labels `x2` of its rows. Entry (r, j) of its distance tile is the row distance of embedding row `r` and proxy
  row `j`; the mask at (r, j) says that row `r`'s label is the class `ci * 2000 + j`; the two candidates put `-∞`
  (resp. `+∞`) where the mask does not (resp. does) hold; and what is stored back is the running maximum (minimum)
  joined with the tile's row maximum (minimum).
-/
import proofs.«425525_j83502754169123_1_alg».proof.Proof.Gen.KernelIdeal.Skeleton
import proofs.«425525_j83502754169123_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.ProxyTriplet

/-! ## Small readings used below -/

section Readings
variable {α : Type}

/-- An integer comparison of two vectors at an index compares the elements. -/
theorem cmpi_apply {s : Shape} {w : ℕ} (p : CmpIPredicate) (a b : IVec s w) (i : s.Idx) :
    cmpi p a b i = IntOp.cmpi p (a i) (b i) := rfl

/-- An integer sum of two vectors at an index adds the elements. -/
theorem addi_apply {s : Shape} {w : ℕ} (a b : IVec s w) (i : s.Idx) : addi a b i = IntOp.addi (a i) (b i) := rfl

/-- The equality comparison of two words is the bit `1` exactly when they are equal. -/
theorem cmpi_eq_one_iff {w : ℕ} (a b : BitVec w) : IntOp.cmpi .eq a b = 1#1 ↔ a = b := by
  show BitVec.ofBool (a == b) = 1#1 ↔ a = b
  by_cases h : a = b
  · subst h; simp
  · have hb : (a == b) = false := by simpa using h
    rw [hb]; exact iff_of_false (by decide) h

/-- A column `[a]` cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The class word: tile offset plus lane, as one natural number's word. -/
theorem class_word (c j : ℕ) :
    IntOp.addi (Scalar.muli (BitVec.ofNat 32 c) 2000#32) (BitVec.ofNat 32 j) = BitVec.ofNat 32 (c * 2000 + j) := by
  show BitVec.ofNat 32 c * BitVec.ofNat 32 2000 + BitVec.ofNat 32 j = _
  rw [BitVec.ofNat_add, BitVec.ofNat_mul]

/-- A `vector.multi_reduction <minimumf>` over one axis, read over the extended reals: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The pattern of `-∞`. -/
theorem ofBits_neg_inf : Ideal.ofBits .f32 0xFF800000#32 = (⊥ : EReal) := by simp [Ideal.ofBits, Ideal.ieee]

/-- The pattern of `+∞`. -/
theorem ofBits_pos_inf : Ideal.ofBits .f32 0x7F800000#32 = (⊤ : EReal) := by simp [Ideal.ofBits, Ideal.ieee]

/-- Row `r` of a `[512, 2000]` tile with lane `k` inserted is the index `(r, k)`. -/
theorem lift_row (r : Fin 512) (k : Fin 2000) : reduces_S512x2000_S512.lift (ix1 r) k = ix2 r k :=
  funext fun a => Fin.ext (by
    match a with
    | ⟨0, _⟩ => rfl
    | ⟨1, _⟩ => rfl)

/-- The row maximum of a `[512, 2000]` tile at row `r`. -/
theorem rowMax_apply (v : FVec Ideal S512x2000 .f32) (r : Fin 512) :
    multiReduction (F := Ideal) .maximumf [1] S512 v 0xFF800000#32 reduces_S512x2000_S512 (.inl rfl) rfl (ix1 r)
      = (Finset.univ : Finset (Fin 2000)).fold max ⊥ fun j => v (ix2 r j) := by
  refine (Ideal.multiReduction_maximumf_single v 0xFF800000#32 reduces_S512x2000_S512 (.inl rfl) rfl (ix1 r)).trans ?_
  show (Finset.univ : Finset (Fin 2000)).fold max (Ideal.ofBits .f32 0xFF800000#32)
      (fun k => v (reduces_S512x2000_S512.lift (ix1 r) k)) = _
  rw [ofBits_neg_inf]
  exact congrArg (fun f => (Finset.univ : Finset (Fin 2000)).fold max ⊥ f) (funext fun k => congrArg v (lift_row r k))

/-- The row minimum of a `[512, 2000]` tile at row `r`. -/
theorem rowMin_apply (v : FVec Ideal S512x2000 .f32) (r : Fin 512) :
    multiReduction (F := Ideal) .minimumf [1] S512 v 0x7F800000#32 reduces_S512x2000_S512 (.inl rfl) rfl (ix1 r)
      = (Finset.univ : Finset (Fin 2000)).fold min ⊤ fun j => v (ix2 r j) := by
  refine (multiReduction_minimumf_single v 0x7F800000#32 reduces_S512x2000_S512 (.inl rfl) rfl (ix1 r)).trans ?_
  show (Finset.univ : Finset (Fin 2000)).fold min (Ideal.ofBits .f32 0x7F800000#32)
      (fun k => v (reduces_S512x2000_S512.lift (ix1 r) k)) = _
  rw [ofBits_pos_inf]
  exact congrArg (fun f => (Finset.univ : Finset (Fin 2000)).fold min ⊤ f) (funext fun k => congrArg v (lift_row r k))

/-- A square root of a vector at an index is the square root of the element. -/
theorem sqrt_apply {s : Shape} {φ : FTy} (a : FVec Ideal s φ) (i : s.Idx) : sqrt a i = Ideal.sqrt (a i) := rfl

/-- Proxy row `j` of a `[2000, 128]` tile with lane `k` inserted is the index `(j, k)`. -/
theorem lift_lane (j : Fin 2000) (k : Fin 128) : reduces_S2000x128_S2000.lift (ix1 j) k = ix2 j k :=
  funext fun a => Fin.ext (by
    match a with
    | ⟨0, _⟩ => rfl
    | ⟨1, _⟩ => rfl)

/-- The squared Euclidean norm of proxy row `j`. -/
theorem rowSq_apply (x1 : FVec Ideal S2000x128 .f32) (j : Fin 2000) :
    multiReduction (F := Ideal) .add [1] S2000 (mulf x1 x1) 0x00000000#32 reduces_S2000x128_S2000 (.inl rfl) rfl (ix1 j)
      = ∑ k : Fin 128, x1 (ix2 j k) * x1 (ix2 j k) := by
  refine (Ideal.multiReduction_add_single (mulf x1 x1) 0x00000000#32 reduces_S2000x128_S2000 (.inl rfl) rfl (ix1 j)).trans ?_
  show ∑ k : Fin 128, (mulf x1 x1) (reduces_S2000x128_S2000.lift (ix1 j) k) = _
  refine Finset.sum_congr rfl fun k _ => ?_
  rw [lift_lane j k]
  rfl

end Readings

/-! ## The matrix product: its operand indices, and its value at (r, j) -/

theorem lhs_dot_0 (i : S512x2000.Idx) (q : dot_S512x128_S2000x128_S512x2000_1_1_0_0_n_n.contr.Idx) :
    (dot_S512x128_S2000x128_S512x2000_1_1_0_0_n_n.lhsIdx i q 0).val = (i 0).val := by
  unfold DotDims.lhsIdx
  rw [dif_neg (show ¬(0 : Fin S512x128.rank) ∈ dot_S512x128_S2000x128_S512x2000_1_1_0_0_n_n.lhsBatch by decide), dif_pos (show (0 : Fin S512x128.rank) ∈ dot_S512x128_S2000x128_S512x2000_1_1_0_0_n_n.lhsNonContracting by decide)]
  rfl
theorem lhs_dot_1 (i : S512x2000.Idx) (q : dot_S512x128_S2000x128_S512x2000_1_1_0_0_n_n.contr.Idx) :
    (dot_S512x128_S2000x128_S512x2000_1_1_0_0_n_n.lhsIdx i q 1).val = (q ⟨0, by decide⟩).val :=
  dot_S512x128_S2000x128_S512x2000_1_1_0_0_n_n.lhsIdx_val_of_single rfl i q
theorem rhs_dot_0 (i : S512x2000.Idx) (q : dot_S512x128_S2000x128_S512x2000_1_1_0_0_n_n.contr.Idx) :
    (dot_S512x128_S2000x128_S512x2000_1_1_0_0_n_n.rhsIdx i q 0).val = (i 1).val := by
  unfold DotDims.rhsIdx
  rw [dif_neg (show ¬(0 : Fin S2000x128.rank) ∈ dot_S512x128_S2000x128_S512x2000_1_1_0_0_n_n.rhsBatch by decide), dif_pos (show (0 : Fin S2000x128.rank) ∈ dot_S512x128_S2000x128_S512x2000_1_1_0_0_n_n.rhsNonContracting by decide)]
  rfl
theorem rhs_dot_1 (i : S512x2000.Idx) (q : dot_S512x128_S2000x128_S512x2000_1_1_0_0_n_n.contr.Idx) :
    (dot_S512x128_S2000x128_S512x2000_1_1_0_0_n_n.rhsIdx i q 1).val = (q ⟨0, by decide⟩).val :=
  dot_S512x128_S2000x128_S512x2000_1_1_0_0_n_n.rhsIdx_val_of_single rfl i q

/-- The product of a `[512, 128]` block with the transpose of a `[2000, 128]` tile, into zero: entry (r, j) is the sum
    over the 128 lanes of the products of row `r` and row `j`. -/
theorem matmul_apply_rj (A : FVec Ideal S512x128 .bf16) (B : FVec Ideal S2000x128 .bf16) (r : Fin 512) (j : Fin 2000) :
    matmul dot_S512x128_S2000x128_S512x2000_1_1_0_0_n_n none A B (constant (F := Ideal) S512x2000 .f32 0x00000000#32) (ix2 r j)
      = ∑ k : Fin 128, A (ix2 r k) * B (ix2 j k) := by
  simp only [matmul]
  rw [Ideal.matmul_constant_zero_apply, ← Equiv.sum_comp (contrEquiv1 dot_S512x128_S2000x128_S512x2000_1_1_0_0_n_n 128 rfl rfl).symm]
  refine Finset.sum_congr rfl fun k _ => ?_
  have hk := contrEquiv1_symm_val dot_S512x128_S2000x128_S512x2000_1_1_0_0_n_n 128 rfl rfl k
  have el : dot_S512x128_S2000x128_S512x2000_1_1_0_0_n_n.lhsIdx (ix2 r j) ((contrEquiv1 dot_S512x128_S2000x128_S512x2000_1_1_0_0_n_n 128 rfl rfl).symm k) = ix2 r k := funext fun a => Fin.ext (by
    match a with
    | ⟨0, _⟩ => exact lhs_dot_0 _ _
    | ⟨1, _⟩ => exact (lhs_dot_1 _ _).trans hk)
  have er : dot_S512x128_S2000x128_S512x2000_1_1_0_0_n_n.rhsIdx (ix2 r j) ((contrEquiv1 dot_S512x128_S2000x128_S512x2000_1_1_0_0_n_n 128 rfl rfl).symm k) = ix2 j k := funext fun a => Fin.ext (by
    match a with
    | ⟨0, _⟩ => exact rhs_dot_0 _ _
    | ⟨1, _⟩ => exact (rhs_dot_1 _ _).trans hk)
  rw [el, er]

/-- The reset value of the running maximum is `-∞` everywhere. -/
theorem pay2_apply (y : S512x1.Idx) : (k0_pay2 (F := Ideal)) y = ⊥ := rfl

/-- The reset value of the running minimum is `+∞` everywhere. -/
theorem pay3_apply (y : S512x1.Idx) : (k0_pay3 (F := Ideal)) y = ⊤ := rfl

/-- The distance tile at (r, j): the row distance of embedding row `r` and proxy row `j`. -/
theorem pay4_apply (x1 : Vec Ideal S2000x128 .f32) (x0 : Vec Ideal S512x128 .f32) (r : Fin 512) (j : Fin 2000) :
    k0_pay4 (F := Ideal) x1 x0 (ix2 r j) = rowDist (fun k => x0 (ix2 r k)) (fun k => x1 (ix2 j k)) := by
  unfold k0_pay4 rowDist
  simp only []
  rw [subf_apply, mulf_apply, broadcast_apply, matmul_apply_rj]
  refine congrArg (fun t => two - two * t) (Finset.sum_congr rfl fun k _ => ?_)
  rw [truncf_apply, truncf_apply, divf_apply, broadcastTo_a1_ab_apply, sqrt_apply, shapeCast_a_a1_apply, rowSq_apply]

/-- The mask at (r, j) is set exactly when row `r`'s label is the class `ci * 2000 + j`. -/
theorem pay5_apply (i : grid0.Coords) (x2 : Vec Ideal S512x1 .i32) (r : Fin 512) (j : Fin 2000) :
    k0_pay5 (F := Ideal) i x2 (ix2 r j) = 1#1 ↔ x2 (ix2 r 0) = BitVec.ofNat 32 ((i 1).val * 2000 + j.val) := by
  have e : k0_pay5 (F := Ideal) i x2 (ix2 r j)
      = IntOp.cmpi .eq (x2 (ix2 r 0)) (BitVec.ofNat 32 ((i 1).val * 2000 + j.val)) := by
    unfold k0_pay5
    simp only []
    rw [cmpi_apply, broadcastTo_a1_ab_apply, broadcastTo_1b_ab_apply, shapeCast_self, addi_apply, broadcast_apply,
      iota_single_apply]
    exact congrArg (IntOp.cmpi .eq (x2 (ix2 r 0))) (class_word (i 1).val j.val)
  rw [e]
  exact cmpi_eq_one_iff _ _

/-- The positive candidate tile at (r, j). -/
theorem pay6_apply (i : grid0.Coords) (x1 : Vec Ideal S2000x128 .f32) (x0 : Vec Ideal S512x128 .f32)
    (x2 : Vec Ideal S512x1 .i32) (r : Fin 512) (j : Fin 2000) :
    k0_pay6 (F := Ideal) i x1 x0 x2 (ix2 r j)
      = if x2 (ix2 r 0) = BitVec.ofNat 32 ((i 1).val * 2000 + j.val)
        then rowDist (fun k => x0 (ix2 r k)) (fun k => x1 (ix2 j k)) else ⊥ := by
  unfold k0_pay6
  simp only []
  rw [select_apply, broadcast_apply, pay4_apply]
  by_cases h : x2 (ix2 r 0) = BitVec.ofNat 32 ((i 1).val * 2000 + j.val)
  · rw [if_pos h, (pay5_apply i x2 r j).mpr h, select_one]
  · rw [if_neg h, eq_zero_of_ne_one (fun h1 => h ((pay5_apply i x2 r j).mp h1)), select_zero]
    rfl

/-- The running maximum after the tile: what was there, joined with the tile's row maximum. -/
theorem pay1_apply (v30 : FVec Ideal S512x2000 .f32) (v37 : Vec Ideal S512x1 .f32) (r : Fin 512) :
    k0_pay1 (F := Ideal) v30 v37 (ix2 r 0)
      = max (v37 (ix2 r 0)) ((Finset.univ : Finset (Fin 2000)).fold max ⊥ fun j => v30 (ix2 r j)) := by
  unfold k0_pay1
  simp only []
  rw [maximumf_apply, shapeCast_self, shapeCast_a_a1_apply, rowMax_apply]

/-- The running minimum after the tile: what was there, joined with the row minimum of the negative candidates. -/
theorem pay7_apply (i : grid0.Coords) (x1 : Vec Ideal S2000x128 .f32) (x0 : Vec Ideal S512x128 .f32)
    (x2 : Vec Ideal S512x1 .i32) (v31 : Vec Ideal S512x1 .f32) (r : Fin 512) :
    k0_pay7 (F := Ideal) i x1 x0 x2 v31 (ix2 r 0)
      = min (v31 (ix2 r 0)) ((Finset.univ : Finset (Fin 2000)).fold min ⊤ fun j =>
          if x2 (ix2 r 0) = BitVec.ofNat 32 ((i 1).val * 2000 + j.val)
          then ⊤ else rowDist (fun k => x0 (ix2 r k)) (fun k => x1 (ix2 j k))) := by
  unfold k0_pay7
  simp only []
  rw [minimumf_apply, shapeCast_self, shapeCast_a_a1_apply, rowMin_apply]
  refine congrArg (min (v31 (ix2 r 0))) ?_
  refine congrArg (fun f => (Finset.univ : Finset (Fin 2000)).fold min ⊤ f) (funext fun j => ?_)
  rw [select_apply, broadcast_apply, pay4_apply]
  by_cases h : x2 (ix2 r 0) = BitVec.ofNat 32 ((i 1).val * 2000 + j.val)
  · rw [if_pos h, (pay5_apply i x2 r j).mpr h, select_one]
    rfl
  · rw [if_neg h, eq_zero_of_ne_one (fun h1 => h ((pay5_apply i x2 r j).mp h1)), select_zero]

end Cert.KernelIdeal.Pay

end
-- ==== Proof.KernelPieces.lean ====
/-
  What one grid point leaves in the two output blocks, as values.

  At the first class tile of a row block (case A) the body first resets the running maximum to the named `-∞`
  and the running minimum to the named `+∞`, then joins the tile in: the maximum block ends at the update of the
  reset value, the minimum block likewise. At every later tile (case B) the blocks end at the update of what
  the tile before left there.
-/
import proofs.«425525_j83502754169123_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-- First tile, running maximum: the update of the reset value. -/
theorem outA3 (c : Dev nD) (i : grid0.Coords) (arg2 : Memref sig .tc .vmem S512x128 .f32) (harg2 : arg2.IsWhole) (arg3 : Memref sig .tc .vmem S2000x128 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S512x128 .f32) (x1 : Vec F S2000x128 .f32) (x2 : Vec F S512x1 .i32) :
    out0_A_3 c i arg2 harg2 arg3 harg3 arg4 harg4 arg5 harg5 arg6 harg6 hc0 x0 x1 x2 = k0_pay1 (k0_pay6 i x1 x0 x2) (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, View.ld_unit_zero (S := S512x128) hz,
    View.ld_unit_zero (S := S2000x128) hz, View.ld_unit_zero (S := S512x1) hz]

/-- First tile, running minimum: the update of the reset value. -/
theorem outA4 (c : Dev nD) (i : grid0.Coords) (arg2 : Memref sig .tc .vmem S512x128 .f32) (harg2 : arg2.IsWhole) (arg3 : Memref sig .tc .vmem S2000x128 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S512x128 .f32) (x1 : Vec F S2000x128 .f32) (x2 : Vec F S512x1 .i32) :
    out0_A_4 c i arg2 harg2 arg3 harg3 arg4 harg4 arg5 harg5 arg6 harg6 hc0 x0 x1 x2 = k0_pay7 i x1 x0 x2 (k0_pay3 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, View.ld_unit_zero (S := S512x128) hz,
    View.ld_unit_zero (S := S2000x128) hz, View.ld_unit_zero (S := S512x1) hz]

/-- Later tiles, running maximum: the update of what was there. -/
theorem outB3 (c : Dev nD) (i : grid0.Coords) (arg2 : Memref sig .tc .vmem S512x128 .f32) (harg2 : arg2.IsWhole) (arg3 : Memref sig .tc .vmem S2000x128 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S512x128 .f32) (x1 : Vec F S2000x128 .f32) (x2 : Vec F S512x1 .i32) (xo3 xo4 : Vec F S512x1 .f32) :
    out0_B_3 c i arg2 harg2 arg3 harg3 arg4 harg4 arg5 harg5 arg6 harg6 hc0 x0 x1 x2 xo3 xo4 = k0_pay1 (k0_pay6 i x1 x0 x2) xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero hz]
  simp only [View.readAt_eq_ld, harg2.read_unread, harg3.read_unread, harg4.read_unread, harg5.read_unread, harg6.read_unread,
    View.ld_unit_zero (S := S512x128) hz, View.ld_unit_zero (S := S2000x128) hz, View.ld_unit_zero (S := S512x1) hz]

/-- Later tiles, running minimum: the update of what was there. -/
theorem outB4 (c : Dev nD) (i : grid0.Coords) (arg2 : Memref sig .tc .vmem S512x128 .f32) (harg2 : arg2.IsWhole) (arg3 : Memref sig .tc .vmem S2000x128 .f32) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S512x128 .f32) (x1 : Vec F S2000x128 .f32) (x2 : Vec F S512x1 .i32) (xo3 xo4 : Vec F S512x1 .f32) :
    out0_B_4 c i arg2 harg2 arg3 harg3 arg4 harg4 arg5 harg5 arg6 harg6 hc0 x0 x1 x2 xo3 xo4 = k0_pay7 i x1 x0 x2 xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz]
  simp only [View.readAt_eq_ld, harg2.read_unread, harg3.read_unread, harg4.read_unread, harg5.read_unread, harg6.read_unread,
    View.ld_unit_zero (S := S512x128) hz, View.ld_unit_zero (S := S2000x128) hz, View.ld_unit_zero (S := S512x1) hz]

end Cert.KernelIdeal.Pieces

end
-- ==== Proof.KernelValue.lean ====
/-
  The idealized kernel's result, read off its run.

  Grid point `t` is (row block, class tile) = (t / 50, t % 50). Its input blocks are rows
  `(t / 50) * 512 + r` of the embeddings and of the labels and rows `(t % 50) * 2000 + j` of the proxies, so by the
  per-element reading of the body the update it makes to row `r` of the two output blocks joins in the candidates of
  the classes of tile `t % 50`. By induction on the point, after point `t` row `r` of the maximum block holds the
  maximum of the positive candidates over the classes below `(t % 50 + 1) * 2000`, and the minimum block the
  minimum of the negative candidates over the same prefix. The blocks are written back after the last tile of
  each row block, where the prefix is every class; the four row blocks cover the 2048 rows. So the two result
  arrays hold the positive and the negative distance of every row, and the host lines after the kernel turn them
  into the loss.
-/
import proofs.«425525_j83502754169123_1_alg».proof.Proof.Gen.KernelIdeal.Frame
import proofs.«425525_j83502754169123_1_alg».proof.Proof.Spec
import proofs.«425525_j83502754169123_1_alg».proof.Proof.KernelPay
import proofs.«425525_j83502754169123_1_alg».proof.Proof.KernelPieces
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.ProxyTriplet

variable (m : (ℓ : Loc nD τ sig) → Buf (Elt Ideal) ℓ) (ρ : Dev nD → PrngReg)

/-! ## The argument arrays and the input blocks -/

/-- The embeddings, the proxies and the labels as launched. -/
abbrev embA (c : Dev nD) : SE.Idx → EReal := m ((c : Thread nD τ).loc main_arg0)
abbrev prxA (c : Dev nD) : SP.Idx → EReal := m ((c : Thread nD τ).loc main_arg1)
abbrev lblA (c : Dev nD) : SL.Idx → BitVec 32 := m ((c : Thread nD τ).loc main_arg2)

/-- The three input blocks of point `t`, at their literal types. -/
abbrev eblk (c : Dev nD) (t : Fin cfg0.N) : Vec Ideal S512x128 .f32 := iblk m c 0 t
abbrev pblk (c : Dev nD) (t : Fin cfg0.N) : Vec Ideal S2000x128 .f32 := iblk m c 1 t
abbrev lblk (c : Dev nD) (t : Fin cfg0.N) : Vec Ideal S512x1 .i32 := iblk m c 2 t

/-- The printed index maps and grid coordinates, decided over the 200 points: the row-block windows sit at block
    `t / 50`, the proxy window at block `t % 50`, and the second grid coordinate is `t % 50`. -/
theorem idx_facts : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = 0
    ∧ win0_3.index t (0 : Fin 2) = t.val / 50 ∧ win0_3.index t (1 : Fin 2) = 0
    ∧ win0_4.index t (0 : Fin 2) = t.val / 50 ∧ win0_4.index t (1 : Fin 2) = 0
    ∧ ((grid0.coords t) 1).val = t.val % 50 :=
  (by decide +kernel : ∀ t : Fin grid0.N, _)

/-- The labels' column as the kernel finds it: the host reshape of the label vector. -/
theorem labelCol_eq (c : Dev nD) :
    (V m c main_v0 : S2048x1.Idx → BitVec 32) = shapeCast S2048x1 (m ((c : Thread nD τ).loc main_arg2)) shapeCasts_S2048_S2048x1 := by
  show StableHlo.after hostOps0 (fun b => m (c, b)) (Proc.devRef .tc main_v0) = _
  after_results
  rfl

/-- Row `r` of point `t`'s embedding block is row `(t / 50) * 512 + r` of the embeddings. -/
theorem eblk_apply (c : Dev nD) (t : Fin cfg0.N) (r : Fin 512) (k : Fin 128) (b : Fin 2048)
    (hb : b.val = t.val / 50 * 512 + r.val) : eblk m c t (ix2 r k) = embA m c (ix2 b k) := by
  obtain ⟨e0, e1, -⟩ := idx_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 512 + 1 * r.val = b.val; omega
  | ⟨1, _⟩ => show win0_0.index t (1 : Fin 2) * 128 + 1 * k.val = k.val; omega

/-- Row `j` of point `t`'s proxy tile is row `(t % 50) * 2000 + j` of the proxies. -/
theorem pblk_apply (c : Dev nD) (t : Fin cfg0.N) (j : Fin 2000) (k : Fin 128) (cl : Fin 100000)
    (hc : cl.val = t.val % 50 * 2000 + j.val) : pblk m c t (ix2 j k) = prxA m c (ix2 cl k) := by
  obtain ⟨-, -, e0, e1, -⟩ := idx_facts t
  show V m c main_arg1 (((cfg0.win 1).blk t).view.emb (ix2 j k)) = _
  rw [V_main_arg1]
  refine congrArg (m ((c : Thread nD τ).loc main_arg1)) (funext fun a => Fin.ext ?_)
  match a with
  | ⟨0, _⟩ => show win0_1.index t (0 : Fin 2) * 2000 + 1 * j.val = cl.val; omega
  | ⟨1, _⟩ => show win0_1.index t (1 : Fin 2) * 128 + 1 * k.val = k.val; omega

/-- Row `r` of point `t`'s label block is the label of row `(t / 50) * 512 + r`. -/
theorem lblk_apply (c : Dev nD) (t : Fin cfg0.N) (r : Fin 512) (b : Fin 2048)
    (hb : b.val = t.val / 50 * 512 + r.val) : lblk m c t (ix2 r 0) = lblA m c (ix1 b) := by
  obtain ⟨-, -, -, -, e0, e1, -⟩ := idx_facts t
  show V m c main_v0 (((cfg0.win 2).blk t).view.emb (ix2 r 0)) = _
  rw [labelCol_eq]
  refine shapeCast_apply _ _ _ (ix1 b) ?_
  rw [Shape.rowMajor_val_one, Shape.rowMajor_val_two]
  show b.val = (win0_2.index t (0 : Fin 2) * 512 + 1 * r.val) * 1 + (win0_2.index t (1 : Fin 2) * 1 + 1 * 0)
  omega

/-! ## One point's update of a row -/

/-- The second grid coordinate of a point is below 50. -/
theorem tile_lt (t : Fin cfg0.N) : t.val % 50 < 50 := Nat.mod_lt _ (by decide)

/-- The running maximum of row `r` after point `t`: what was there, joined with the positive candidates of the
    classes of tile `t % 50` for batch row `b = (t / 50) * 512 + r`. -/
theorem upd_max (c : Dev nD) (t : Fin cfg0.N) (v : Vec Ideal S512x1 .f32) (r : Fin 512) (b : Fin 2048)
    (hb : b.val = t.val / 50 * 512 + r.val) :
    k0_pay1 (F := Ideal) (k0_pay6 (grid0.coords t) (pblk m c t) (eblk m c t) (lblk m c t)) v (ix2 r 0)
      = max (v (ix2 r 0)) ((Finset.univ : Finset (Fin 2000)).fold max ⊥ fun j =>
          posCand (embA m c) (prxA m c) (lblA m c) b ⟨t.val % 50 * 2000 + j.val, by have := j.isLt; have := tile_lt t; omega⟩) := by
  obtain ⟨-, -, -, -, -, -, -, -, -, -, eg⟩ := idx_facts t
  refine (Pay.pay1_apply _ _ r).trans (congrArg (max (v (ix2 r 0))) (Finset.fold_congr fun j _ => ?_))
  refine (Pay.pay6_apply _ _ _ _ r j).trans ?_
  unfold posCand Cert.ProxyTriplet.dist
  rw [lblk_apply m c t r b hb, eg]
  refine if_congr Iff.rfl (congrArg₂ rowDist (funext fun k => eblk_apply m c t r k b hb)
    (funext fun k => pblk_apply m c t j k _ rfl)) rfl

/-- The running minimum of row `r` after point `t`, likewise with the negative candidates. -/
theorem upd_min (c : Dev nD) (t : Fin cfg0.N) (v : Vec Ideal S512x1 .f32) (r : Fin 512) (b : Fin 2048)
    (hb : b.val = t.val / 50 * 512 + r.val) :
    k0_pay7 (F := Ideal) (grid0.coords t) (pblk m c t) (eblk m c t) (lblk m c t) v (ix2 r 0)
      = min (v (ix2 r 0)) ((Finset.univ : Finset (Fin 2000)).fold min ⊤ fun j =>
          negCand (embA m c) (prxA m c) (lblA m c) b ⟨t.val % 50 * 2000 + j.val, by have := j.isLt; have := tile_lt t; omega⟩) := by
  obtain ⟨-, -, -, -, -, -, -, -, -, -, eg⟩ := idx_facts t
  refine (Pay.pay7_apply _ _ _ _ _ r).trans (congrArg (min (v (ix2 r 0))) (Finset.fold_congr fun j _ => ?_))
  unfold negCand Cert.ProxyTriplet.dist
  rw [lblk_apply m c t r b hb, eg]
  refine if_congr Iff.rfl rfl (congrArg₂ rowDist (funext fun k => eblk_apply m c t r k b hb)
    (funext fun k => pblk_apply m c t j k _ rfl))

/-! ## What the output blocks hold after each point -/

/-- After point `n` row `r` of the two output blocks holds the maximum of the positive candidates, and the minimum
    of the negative candidates, of batch row `(n / 50) * 512 + r` over the classes below `(n % 50 + 1) * 2000`. -/
theorem outs_eq (c : Dev nD) : ∀ (n : ℕ) (h : n < cfg0.N) (r : Fin 512) (b : Fin 2048), b.val = n / 50 * 512 + r.val →
    (outsAt0 m c n h).1 (ix2 r 0) = maxBelow (posCand (embA m c) (prxA m c) (lblA m c) b) ((n % 50 + 1) * 2000)
    ∧ (outsAt0 m c n h).2 (ix2 r 0) = minBelow (negCand (embA m c) (prxA m c) (lblA m c) b) ((n % 50 + 1) * 2000) := by
  intro n
  induction n using Nat.strong_induction_on with
  | _ n ih =>
    intro h r b hb
    have hN : cfg0.N = 200 := N_0
    have hb' : b.val = (⟨n, h⟩ : Fin cfg0.N).val / 50 * 512 + r.val := hb
    by_cases h0 : n % 50 = 0
    · -- the first tile of a row block: the reset values, joined with tile 0
      have hA : (⟨n, h⟩ : Fin cfg0.N).val % 50 = 0 := h0
      rw [outsAt0_A m c ⟨n, h⟩ hA]
      dsimp only
      constructor
      · refine (congrFun (Pieces.outA3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hA)
          (iblk m c 0 ⟨n, h⟩) (iblk m c 1 ⟨n, h⟩) (iblk m c 2 ⟨n, h⟩)) (ix2 r 0)).trans ?_
        refine (upd_max m c ⟨n, h⟩ _ r b hb').trans ?_
        rw [Pay.pay2_apply, maxBelow_tile _ (n % 50) (Nat.mod_lt _ (by decide))]
        refine congrArg₂ max ?_ rfl
        rw [h0, Nat.zero_mul, maxBelow_zero]
      · refine (congrFun (Pieces.outA4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hA)
          (iblk m c 0 ⟨n, h⟩) (iblk m c 1 ⟨n, h⟩) (iblk m c 2 ⟨n, h⟩)) (ix2 r 0)).trans ?_
        refine (upd_min m c ⟨n, h⟩ _ r b hb').trans ?_
        rw [Pay.pay3_apply, minBelow_tile _ (n % 50) (Nat.mod_lt _ (by decide))]
        refine congrArg₂ min ?_ rfl
        rw [h0, Nat.zero_mul, minBelow_zero]
    · -- a later tile: what the tile before left, joined with this tile
      have hB : ¬(⟨n, h⟩ : Fin cfg0.N).val % 50 = 0 := h0
      have hlt : n - 1 < cfg0.N := Nat.lt_of_le_of_lt (Nat.sub_le _ _) h
      obtain ⟨ih1, ih2⟩ := ih (n - 1) (by omega) hlt r b (by omega)
      rw [outsAt0_B m c ⟨n, h⟩ hB]
      dsimp only
      constructor
      · refine (congrFun (Pieces.outB3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (fun hh => hB ((hcond0_0 ⟨n, h⟩).mp hh))
          (iblk m c 0 ⟨n, h⟩) (iblk m c 1 ⟨n, h⟩) (iblk m c 2 ⟨n, h⟩) (outsAt0 m c (n - 1) hlt).1 (outsAt0 m c (n - 1) hlt).2) (ix2 r 0)).trans ?_
        refine (upd_max m c ⟨n, h⟩ _ r b hb').trans ?_
        rw [ih1, maxBelow_tile _ (n % 50) (Nat.mod_lt _ (by decide))]
        exact congrArg₂ max (congrArg (maxBelow _) (by omega)) rfl
      · refine (congrFun (Pieces.outB4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (fun hh => hB ((hcond0_0 ⟨n, h⟩).mp hh))
          (iblk m c 0 ⟨n, h⟩) (iblk m c 1 ⟨n, h⟩) (iblk m c 2 ⟨n, h⟩) (outsAt0 m c (n - 1) hlt).1 (outsAt0 m c (n - 1) hlt).2) (ix2 r 0)).trans ?_
        refine (upd_min m c ⟨n, h⟩ _ r b hb').trans ?_
        rw [ih2, minBelow_tile _ (n % 50) (Nat.mod_lt _ (by decide))]
        exact congrArg₂ min (congrArg (minBelow _) (by omega)) rfl

/-! ## The two result arrays -/

/-- The column of positive distances, and the column of negative distances. -/
def posArr (c : Dev nD) : S2048x1.Idx → EReal := fun i => pos (embA m c) (prxA m c) (lblA m c) ⟨(i 0).val, idx2_lt0 i⟩
def negArr (c : Dev nD) : S2048x1.Idx → EReal := fun i => minNeg (embA m c) (prxA m c) (lblA m c) ⟨(i 0).val, idx2_lt0 i⟩

/-- After the last class tile of a row block, row `j` of the maximum block is the positive distance of the batch
    row that row `j` of the block is: the prefix is every class. -/
theorem row3 (c : Dev nD) (t : Fin cfg0.N) (h49 : t.val % 50 = 49) (j : S512x1.Idx) :
    (outsAt0 m c t.val t.isLt).1 j = posArr m c (((cfg0.win 3).blk t).view.emb j) := by
  have hN : t.val < 200 := lt_of_lt_of_eq t.isLt (show cfg0.N = 200 from N_0)
  obtain ⟨-, -, -, -, -, -, e0, e1, -⟩ := idx_facts t
  obtain ⟨r, q, rfl⟩ : ∃ (r : Fin 512) (q : Fin 1), j = ix2 r q := ⟨j 0, j 1, eq_ix2 j⟩
  obtain rfl : q = 0 := Subsingleton.elim _ _
  have hrow : ((((cfg0.win 3).blk t).view.emb (ix2 r 0)) 0).val = t.val / 50 * 512 + r.val := by
    show win0_3.index t (0 : Fin 2) * 512 + 1 * r.val = _
    omega
  have hb : (⟨t.val / 50 * 512 + r.val, by omega⟩ : Fin 2048).val = t.val / 50 * 512 + r.val := rfl
  rw [(outs_eq m c t.val t.isLt r ⟨t.val / 50 * 512 + r.val, by omega⟩ hb).1, h49]
  show maxBelow _ 100000 = _
  rw [maxBelow_all]
  unfold posArr pos
  exact congrArg (fun b => (Finset.univ : Finset (Fin 100000)).fold max ⊥ (posCand (embA m c) (prxA m c) (lblA m c) b)) (Fin.ext hrow.symm)

/-- The same for the minimum block. -/
theorem row4 (c : Dev nD) (t : Fin cfg0.N) (h49 : t.val % 50 = 49) (j : S512x1.Idx) :
    (outsAt0 m c t.val t.isLt).2 j = negArr m c (((cfg0.win 4).blk t).view.emb j) := by
  have hN : t.val < 200 := lt_of_lt_of_eq t.isLt (show cfg0.N = 200 from N_0)
  obtain ⟨-, -, -, -, -, -, -, -, e0, e1, -⟩ := idx_facts t
  obtain ⟨r, q, rfl⟩ : ∃ (r : Fin 512) (q : Fin 1), j = ix2 r q := ⟨j 0, j 1, eq_ix2 j⟩
  obtain rfl : q = 0 := Subsingleton.elim _ _
  have hrow : ((((cfg0.win 4).blk t).view.emb (ix2 r 0)) 0).val = t.val / 50 * 512 + r.val := by
    show win0_4.index t (0 : Fin 2) * 512 + 1 * r.val = _
    omega
  have hb : (⟨t.val / 50 * 512 + r.val, by omega⟩ : Fin 2048).val = t.val / 50 * 512 + r.val := rfl
  rw [(outs_eq m c t.val t.isLt r ⟨t.val / 50 * 512 + r.val, by omega⟩ hb).2, h49]
  show minBelow _ 100000 = _
  rw [minBelow_all]
  unfold negArr minNeg
  exact congrArg (fun b => (Finset.univ : Finset (Fin 100000)).fold min ⊤ (negCand (embA m c) (prxA m c) (lblA m c) b)) (Fin.ext hrow.symm)

/-- A block that agrees, row by row, with an array read through the window's block at point `t` is what the
    window writes back of it. Stated over any block, so that nothing of the run is opened. -/
theorem cut3_eq (t : Fin cfg0.N) (X : Vec Ideal S512x1 .f32) (A : S2048x1.Idx → EReal)
    (h : ∀ j : S512x1.Idx, X j = A (((cfg0.win 3).blk t).view.emb j)) :
    (cfg0.win 3).cut (grid0.coords t) X = ((cfg0.win 3).blk t).view.read (Elt Ideal) A := by
  funext j
  show X j = A (((cfg0.win 3).blk t).view.emb j)
  exact h j

theorem cut4_eq (t : Fin cfg0.N) (X : Vec Ideal S512x1 .f32) (A : S2048x1.Idx → EReal)
    (h : ∀ j : S512x1.Idx, X j = A (((cfg0.win 4).blk t).view.emb j)) :
    (cfg0.win 4).cut (grid0.coords t) X = ((cfg0.win 4).blk t).view.read (Elt Ideal) A := by
  funext j
  show X j = A (((cfg0.win 4).blk t).view.emb j)
  exact h j

/-- What is written back after the last class tile of a row block is that block of the column of positive
    distances. -/
theorem flushed3_eq (c : Dev nD) (t : Fin cfg0.N) (hf : (cfg0.win 3).flush t = true) :
    (dats m 0 c).flushed 3 t = ((cfg0.win 3).blk t).view.read (Elt Ideal) (posArr m c) := by
  have h49 : t.val % 50 = 49 := (flush0_3 t).mp hf
  show (cfg0.win 3).cut (grid0.coords t) ((dats m 0 c).after 3 t) = _
  rw [after0_3]
  exact cut3_eq t _ _ (row3 m c t h49)

/-- The same for the minimum block. -/
theorem flushed4_eq (c : Dev nD) (t : Fin cfg0.N) (hf : (cfg0.win 4).flush t = true) :
    (dats m 0 c).flushed 4 t = ((cfg0.win 4).blk t).view.read (Elt Ideal) (negArr m c) := by
  have h49 : t.val % 50 = 49 := (flush0_4 t).mp hf
  show (cfg0.win 4).cut (grid0.coords t) ((dats m 0 c).after 4 t) = _
  rw [after0_4]
  exact cut4_eq t _ _ (row4 m c t h49)

/-- Every row of the column lies in the block written back after the last tile of its row block. -/
theorem cover3 (i : S2048x1.Idx) : ∃ t : Fin cfg0.N, (cfg0.win 3).flush t = true ∧ i ∈ ((cfg0.win 3).blk t).view.set := by
  have hi0 : (i 0).val < 2048 := idx2_lt0 i
  have hi1 : (i 1).val < 1 := idx2_lt1 i
  have hN : cfg0.N = 200 := N_0
  have ht : (i 0).val / 512 * 50 + 49 < cfg0.N := by omega
  obtain ⟨-, -, -, -, -, -, e0, e1, -⟩ := idx_facts ⟨(i 0).val / 512 * 50 + 49, ht⟩
  have e0' : win0_3.index ⟨(i 0).val / 512 * 50 + 49, ht⟩ (0 : Fin 2) = ((i 0).val / 512 * 50 + 49) / 50 := e0
  refine ⟨⟨(i 0).val / 512 * 50 + 49, ht⟩, (flush0_3 _).mpr (by show ((i 0).val / 512 * 50 + 49) % 50 = 49; omega), ?_⟩
  show i ∈ ((View.whole main_v1_0).slice (win0_3.rect ⟨(i 0).val / 512 * 50 + 49, ht⟩)).set
  rw [View.set_slice_whole, Rect.mem_set_unit]
  intro a
  match a with
  | ⟨0, _⟩ =>
    show win0_3.index ⟨(i 0).val / 512 * 50 + 49, ht⟩ (0 : Fin 2) * 512 ≤ (i 0).val ∧ (i 0).val < win0_3.index ⟨(i 0).val / 512 * 50 + 49, ht⟩ (0 : Fin 2) * 512 + 512
    omega
  | ⟨1, _⟩ =>
    show win0_3.index ⟨(i 0).val / 512 * 50 + 49, ht⟩ (1 : Fin 2) * 1 ≤ (i 1).val ∧ (i 1).val < win0_3.index ⟨(i 0).val / 512 * 50 + 49, ht⟩ (1 : Fin 2) * 1 + 1
    omega

theorem cover4 (i : S2048x1.Idx) : ∃ t : Fin cfg0.N, (cfg0.win 4).flush t = true ∧ i ∈ ((cfg0.win 4).blk t).view.set := by
  have hi0 : (i 0).val < 2048 := idx2_lt0 i
  have hi1 : (i 1).val < 1 := idx2_lt1 i
  have hN : cfg0.N = 200 := N_0
  have ht : (i 0).val / 512 * 50 + 49 < cfg0.N := by omega
  obtain ⟨-, -, -, -, -, -, -, -, e0, e1, -⟩ := idx_facts ⟨(i 0).val / 512 * 50 + 49, ht⟩
  have e0' : win0_4.index ⟨(i 0).val / 512 * 50 + 49, ht⟩ (0 : Fin 2) = ((i 0).val / 512 * 50 + 49) / 50 := e0
  refine ⟨⟨(i 0).val / 512 * 50 + 49, ht⟩, (flush0_4 _).mpr (by show ((i 0).val / 512 * 50 + 49) % 50 = 49; omega), ?_⟩
  show i ∈ ((View.whole main_v1_1).slice (win0_4.rect ⟨(i 0).val / 512 * 50 + 49, ht⟩)).set
  rw [View.set_slice_whole, Rect.mem_set_unit]
  intro a
  match a with
  | ⟨0, _⟩ =>
    show win0_4.index ⟨(i 0).val / 512 * 50 + 49, ht⟩ (0 : Fin 2) * 512 ≤ (i 0).val ∧ (i 0).val < win0_4.index ⟨(i 0).val / 512 * 50 + 49, ht⟩ (0 : Fin 2) * 512 + 512
    omega
  | ⟨1, _⟩ =>
    show win0_4.index ⟨(i 0).val / 512 * 50 + 49, ht⟩ (1 : Fin 2) * 1 ≤ (i 1).val ∧ (i 1).val < win0_4.index ⟨(i 0).val / 512 * 50 + 49, ht⟩ (1 : Fin 2) * 1 + 1
    omega

/-- So the two result arrays end at the two columns. -/
theorem final3 (c : Dev nD) : (dats m 0 c).arrAt 3 cfg0.N = posArr m c :=
  (dats m 0 c).arrAt_eq_of_cover 3 (posArr m c) (fun t hf => flushed3_eq m c t hf) cover3
theorem final4 (c : Dev nD) : (dats m 0 c).arrAt 4 cfg0.N = negArr m c :=
  (dats m 0 c).arrAt_eq_of_cover 4 (negArr m c) (fun t hf => flushed4_eq m c t hf) cover4

/-! ## The host lines after the kernel -/

/-- The column of positive distances, flattened, is the vector of positive distances. -/
theorem posCol_eq (c : Dev nD) :
    shapeCast S2048 (posArr m c) shapeCasts_S2048x1_S2048 = posVec (embA m c) (prxA m c) (lblA m c) := by
  funext i
  refine (shapeCast_apply _ _ i (ix2 ⟨(i 0).val, (i 0).isLt⟩ (0 : Fin 1)) ?_).trans rfl
  rw [Shape.rowMajor_val_one, Shape.rowMajor_val_two]
  show (i 0).val * 1 + 0 = (i 0).val
  omega

/-- The same for the negative distances. -/
theorem negCol_eq (c : Dev nD) :
    shapeCast S2048 (negArr m c) shapeCasts_S2048x1_S2048 = negVec (embA m c) (prxA m c) (lblA m c) := by
  funext i
  refine (shapeCast_apply _ _ i (ix2 ⟨(i 0).val, (i 0).isLt⟩ (0 : Fin 1)) ?_).trans rfl
  rw [Shape.rowMajor_val_one, Shape.rowMajor_val_two]
  show (i 0).val * 1 + 0 = (i 0).val
  omega

/-- The host lines after the kernel flatten the two result columns and apply the margin, the difference, the clamp
    at zero and the mean: the loss of the two distance vectors. -/
theorem tail_eq (c : Dev nD) :
    Pipeline.afterTail₀ cfgs (dats m) 0 (V0 m) [hostOps1, hostOps1_1, hostOps1_2] c main_v9
      = loss bcast_S_S2048 reducesTo_S2048_S_d0 h_S_ (embA m c) (prxA m c) (lblA m c) := by
  unfold Pipeline.afterTail₀
  simp only [hostOps1, hostOps1_1, hostOps1_2, List.flatten_cons, List.flatten_nil, List.append_nil, List.cons_append,
    List.nil_append]
  after_results
  refine Eq.trans (b := lossOf bcast_S_S2048 reducesTo_S2048_S_d0 h_S_
    (shapeCast S2048 (Pipeline.withArrays spec0 c (V0 m c) (fun w => (dats m 0 c).arrAt w cfg0.N) (Proc.devRef .tc main_v1_0)) shapeCasts_S2048x1_S2048)
    (shapeCast S2048 (Pipeline.withArrays spec0 c (V0 m c) (fun w => (dats m 0 c).arrAt w cfg0.N) (Proc.devRef .tc main_v1_1)) shapeCasts_S2048x1_S2048)) rfl ?_
  rw [show Pipeline.withArrays spec0 c (V0 m c) (fun w => (dats m 0 c).arrAt w cfg0.N) (Proc.devRef .tc main_v1_0) = posArr m c from
      (Pipeline.withArrays_arr spec0 launch0.win.arr_inj c _ _ 3).trans (final3 m c),
    show Pipeline.withArrays spec0 c (V0 m c) (fun w => (dats m 0 c).arrAt w cfg0.N) (Proc.devRef .tc main_v1_1) = negArr m c from
      (Pipeline.withArrays_arr spec0 launch0.win.arr_inj c _ _ 4).trans (final4 m c),
    posCol_eq, negCol_eq]
  rfl

/-- The idealized kernel's run: every weakly fair execution ends with the result at the proxy triplet loss of the
    three argument arrays, and with the argument arrays as they were. -/
theorem run : θ_run defs (onTc (τ := τ) (main (F := Ideal))) ⟨m, fun _ => 0, ρ⟩ (fun r => ∀ c : Dev nD,
      r.2.mem ((c.tc : Thread nD τ).loc main_v9) = loss bcast_S_S2048 reducesTo_S2048_S_d0 h_S_ (embA m c) (prxA m c) (lblA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.RefGather.lean ====
/-
  The reference's gather, read at one row: with the index array holding, in row `b`, the pair (`b`, `c`) of a
  row number and a class number, both inside the matrix, the gathered element of row `b` is the matrix entry at
  (`b`, `c`): nothing is clamped.
-/
import proofs.«425525_j83502754169123_1_alg».proof.Proof.Gen.ReferenceIdeal
import Idealize.ShloMosaic.Lib.ValueIdx

noncomputable section

namespace Cert.ReferenceIdeal.RefGather

open Idealize.ShloMosaic Idealize.ShloMosaic.ValueIdx Cert.ReferenceIdeal Cert.ReferenceIdeal.Gen

/-- A 32-bit word written from a natural number below 2^31 reads back, signed, as that number. -/
theorem toNat_toInt_ofNat (n : Nat) (h : n < 2 ^ 31) : (BitVec.ofNat 32 n).toInt.toNat = n := by
  have hn : (BitVec.ofNat 32 n).toNat = n := by
    rw [BitVec.toNat_ofNat]; exact Nat.mod_eq_of_lt (by omega)
  rw [BitVec.toInt_eq_toNat_of_lt (by rw [hn]; omega), hn]
  rfl

/-- The start-indices index that result row `b` reads for component `k` of its start index is (`b`, `k`):
    the row is the result's one batch coordinate, the component sits on the index vector's axis. -/
theorem siIdx_row (b : Fin 2048) (k : Fin gather_S2048x100000_S2048x2_S2048_n_01_n_n_01_1_11.startIndexMap.length) :
    gather_S2048x100000_S2048x2_S2048_n_01_n_n_01_1_11.siIdx (ix1 b) k = ix2 b (show Fin 2 from ⟨k.val, k.isLt⟩) := by
  funext a
  refine Fin.ext ?_
  match a with
  | ⟨0, _⟩ => rfl
  | ⟨1, _⟩ => rfl

/-- The gather of one element per row at the index pair (`b`, `c`). -/
theorem gather_pair_apply {α : Type} (x : S2048x100000.Idx → α) (idx : S2048x2.Idx → BitVec 32) (b : Fin 2048) (c : Fin 100000)
    (h0 : idx (ix2 b (0 : Fin 2)) = BitVec.ofNat 32 b.val) (h1 : idx (ix2 b (1 : Fin 2)) = BitVec.ofNat 32 c.val) :
    Host.gather gather_S2048x100000_S2048x2_S2048_n_01_n_n_01_1_11 x idx (ix1 b) = x (ix2 b c) := by
  have hb := b.isLt
  have hc := c.isLt
  unfold Host.gather
  refine congrArg x (funext fun a => Fin.ext ?_)
  match a with
  | ⟨0, _⟩ =>
    -- axis 0: the start index's component 0, the row number, inside [0, 2047]
    show gather_S2048x100000_S2048x2_S2048_n_01_n_n_01_1_11.start (ix1 b) idx 0
      + gather_S2048x100000_S2048x2_S2048_n_01_n_n_01_1_11.batchCoord (ix1 b) 0
      + gather_S2048x100000_S2048x2_S2048_n_01_n_n_01_1_11.offCoord (ix1 b) 0 = b.val
    rw [GatherDims.batchCoord_eq_zero _ _ _ List.not_mem_nil,
      GatherDims.offCoord_eq_zero _ _ _ (fun h => ((GatherDims.mem_sKept _ _).mp h).1 (by decide)),
      Nat.add_zero]
    unfold GatherDims.start
    rw [dif_pos (show (0 : Fin 2) ∈ gather_S2048x100000_S2048x2_S2048_n_01_n_n_01_1_11.startIndexMap from by decide),
      siIdx_row]
    show min (idx (ix2 b (0 : Fin 2))).toInt.toNat (2048 - 1) = b.val
    rw [h0, toNat_toInt_ofNat _ (by omega)]
    omega
  | ⟨1, _⟩ =>
    -- axis 1: the start index's component 1, the class number, inside [0, 99999]
    show gather_S2048x100000_S2048x2_S2048_n_01_n_n_01_1_11.start (ix1 b) idx 1
      + gather_S2048x100000_S2048x2_S2048_n_01_n_n_01_1_11.batchCoord (ix1 b) 1
      + gather_S2048x100000_S2048x2_S2048_n_01_n_n_01_1_11.offCoord (ix1 b) 1 = c.val
    rw [GatherDims.batchCoord_eq_zero _ _ _ List.not_mem_nil,
      GatherDims.offCoord_eq_zero _ _ _ (fun h => ((GatherDims.mem_sKept _ _).mp h).1 (by decide)),
      Nat.add_zero]
    unfold GatherDims.start
    rw [dif_pos (show (1 : Fin 2) ∈ gather_S2048x100000_S2048x2_S2048_n_01_n_n_01_1_11.startIndexMap from by decide),
      siIdx_row]
    show min (idx (ix2 b (1 : Fin 2))).toInt.toNat (100000 - 1) = c.val
    rw [h1, toNat_toInt_ofNat _ (by omega)]
    omega

end Cert.ReferenceIdeal.RefGather

end
-- ==== Proof.RefScatter.lean ====
/-
  The reference's scatter, read at one element: the index array holds, in row `n`, the pair (`n`, `lab n`) of a
  row number and a class number inside the matrix, and every update carries the same value `v0`. The updates are
  applied one after the other, each overwriting one entry. An entry (`b`, `c`) is written exactly when `c` is
  row `b`'s class `lab b` (only update `b` lands in row `b`), and then it holds `v0`; every other entry keeps
  the matrix's own value.
-/
import proofs.«425525_j83502754169123_1_alg».proof.Proof.Gen.ReferenceIdeal
import Idealize.ShloMosaic.Lib.ValueIdx

noncomputable section

namespace Cert.ReferenceIdeal.RefScatter

open Idealize.ShloMosaic Idealize.ShloMosaic.ValueIdx Cert.ReferenceIdeal Cert.ReferenceIdeal.Gen

/-! ## Overwriting one value along a list

Each step overwrites the entry `t n` with the same value `v0` and leaves the others. No two targets need differ:
whichever steps hit an entry, they all leave `v0` there. -/

/-- An entry that no step of the list targets keeps the starting value. -/
theorem foldl_set_miss {ι β α : Type} (t : ι → β) (step : (β → α) → ι → (β → α))
    (hmiss : ∀ r n p, p ≠ t n → step r n p = r p)
    (l : List ι) (r : β → α) (p : β) (h : ∀ n ∈ l, t n ≠ p) :
    l.foldl step r p = r p := by
  induction l generalizing r with
  | nil => rfl
  | cons a l ih =>
    have ha : p ≠ t a := fun e => h a List.mem_cons_self e.symm
    rw [List.foldl_cons, ih _ (fun n hn => h n (List.mem_cons_of_mem _ hn)), hmiss r a p ha]

/-- An entry that some step of the list targets ends at `v0`: after the last step that targets it, the rest
    of the list misses it. -/
theorem foldl_set_hit {ι β α : Type} (t : ι → β) (v0 : α) (step : (β → α) → ι → (β → α))
    (hhit : ∀ r n p, p = t n → step r n p = v0) (hmiss : ∀ r n p, p ≠ t n → step r n p = r p)
    (l : List ι) (r : β → α) (p : β) (h : ∃ n ∈ l, t n = p) :
    l.foldl step r p = v0 := by
  induction l generalizing r with
  | nil => obtain ⟨n, hn, _⟩ := h; cases hn
  | cons a l ih =>
    rw [List.foldl_cons]
    by_cases hl : ∃ n ∈ l, t n = p
    · exact ih _ hl
    · have ha : p = t a := by
        obtain ⟨n, hn, e⟩ := h
        rcases List.mem_cons.1 hn with rfl | hn'
        · exact e.symm
        · exact absurd ⟨n, hn', e⟩ hl
      rw [foldl_set_miss t step hmiss l _ p (fun n hn e => hl ⟨n, hn, e⟩), hhit r a p ha]

/-! ## Where one update lands

Both matrix axes are scattered axes with no window, so update `j` lands at the pair of numbers the index array
holds in row `j 0`, read signed. -/

local notation "dS" => scatter_S2048x100000_S2048x2_S2048_n_01_01_1

/-- No axis of the matrix is a window axis: the window coordinate is 0 on both. -/
theorem window_zero (j : S2048.Idx) (a : Fin 2) : ScatterDims.window dS j a = 0 := by
  have hmem : ∀ a : Fin 2, a ∉ ScatterDims.sKept dS := by decide
  unfold ScatterDims.window
  rw [dif_neg (hmem a)]

/-- Component `k` of update `j`'s start index is read at row `j 0`, column `k` of the index array. -/
theorem siIdx_eq (j : S2048.Idx) (k : Fin 2) :
    ScatterDims.siIdx dS j ⟨k.val, k.isLt⟩ = ix2 (j 0) k := by
  funext a
  apply Fin.ext
  match a, k with
  | ⟨0, _⟩, _ => rfl
  | ⟨1, _⟩, _ => rfl

/-- Matrix axis `a` starts at the signed reading of column `a` of the index array's row `j 0`. -/
theorem start_eq (j : S2048.Idx) (idx : S2048x2.Idx → BitVec 32) (a : Fin 2) :
    ScatterDims.start dS j idx a = (idx (ix2 (j 0) a)).toInt := by
  have hmem : ∀ a : Fin 2, a ∈ ScatterDims.scatterDimsToOperandDims dS := by decide
  unfold ScatterDims.start
  rw [dif_pos (hmem a)]
  match a with
  | ⟨0, _⟩ => exact congrArg (fun i => (idx i).toInt) (siIdx_eq j 0)
  | ⟨1, _⟩ => exact congrArg (fun i => (idx i).toInt) (siIdx_eq j 1)

/-- A 32-bit word holding a number below 2^31 reads, signed, as that number. -/
theorem toInt_ofNat_small (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- When row `n` of the index array holds (`n`, `l`), update `n` lands at (`n`, `l`), inside the matrix. -/
theorem resultIdx_pair (idx : S2048x2.Idx → BitVec 32) (n : Fin 2048) (l : Fin 100000)
    (e0 : idx (ix2 n (0 : Fin 2)) = BitVec.ofNat 32 n.val) (e1 : idx (ix2 n (1 : Fin 2)) = BitVec.ofNat 32 l.val) :
    ScatterDims.resultIdx? dS (ix1 n) idx = some (ix2 n l) := by
  have hs : ∀ a : Fin 2, ScatterDims.start dS (ix1 n) idx a + ScatterDims.window dS (ix1 n) a
      = ((ix2 n l a).val : Int) := by
    intro a
    rw [start_eq, window_zero]
    match a with
    | ⟨0, _⟩ =>
      show (idx (ix2 n (0 : Fin 2))).toInt + ((0 : Nat) : Int) = (n.val : Int)
      rw [e0, toInt_ofNat_small _ (by omega)]; omega
    | ⟨1, _⟩ =>
      show (idx (ix2 n (1 : Fin 2))).toInt + ((0 : Nat) : Int) = (l.val : Int)
      rw [e1, toInt_ofNat_small _ (by omega)]; omega
  unfold ScatterDims.resultIdx?
  rw [dif_pos (fun a => by
    rw [hs a]
    exact ⟨Int.natCast_nonneg _, Int.ofNat_lt.2 (ix2 n l a).isLt⟩)]
  refine congrArg some (funext fun a => Fin.ext ?_)
  show (ScatterDims.start dS (ix1 n) idx a + ScatterDims.window dS (ix1 n) a).toNat = (ix2 n l a).val
  rw [hs a]; rfl

/-- The entry update `j` writes: row `j 0`, that row's class. -/
abbrev tgt (lab : Fin 2048 → Fin 100000) (j : S2048.Idx) : S2048x100000.Idx := ix2 (j 0 : Fin 2048) (lab (j 0))

/-- Update `j` lands at (`j 0`, `lab (j 0)`): row `j 0` of the index array holds that pair. -/
theorem resultIdx_row (idx : S2048x2.Idx → BitVec 32) (lab : Fin 2048 → Fin 100000)
    (h0 : ∀ n : Fin 2048, idx (ix2 n (0 : Fin 2)) = BitVec.ofNat 32 n.val)
    (h1 : ∀ n : Fin 2048, idx (ix2 n (1 : Fin 2)) = BitVec.ofNat 32 (lab n).val) (j : S2048.Idx) :
    ScatterDims.resultIdx? dS j idx = some (tgt lab j) :=
  (congrArg (fun j' => ScatterDims.resultIdx? dS j' idx) (eq_ix1 j)).trans
    (resultIdx_pair idx (j 0) (lab (j 0)) (h0 _) (h1 _))

/-- The scatter of one constant value at the index pairs (`n`, `lab n`), read at (`b`, `c`). -/
theorem scatter_pairs_apply {α : Type} (x : S2048x100000.Idx → α) (idx : S2048x2.Idx → BitVec 32) (upd : S2048.Idx → α) (v0 : α)
    (lab : Fin 2048 → Fin 100000) (hupd : ∀ i, upd i = v0)
    (h0 : ∀ n : Fin 2048, idx (ix2 n (0 : Fin 2)) = BitVec.ofNat 32 n.val)
    (h1 : ∀ n : Fin 2048, idx (ix2 n (1 : Fin 2)) = BitVec.ofNat 32 (lab n).val) (b : Fin 2048) (c : Fin 100000) :
    Host.scatter scatter_S2048x100000_S2048x2_S2048_n_01_01_1 (fun _ u => u) x idx upd (ix2 b c)
      = if lab b = c then v0 else x (ix2 b c) := by
  unfold Host.scatter
  by_cases h : lab b = c
  · -- update `b` targets (`b`, `lab b`) = (`b`, `c`)
    rw [if_pos h]
    refine foldl_set_hit (fun n : Fin S2048.numel => tgt lab (S2048.rowMajor.symm n)) v0 _ ?_ ?_ _ _ _ ?_
    · intro r n p hp
      rw [resultIdx_row idx lab h0 h1 (S2048.rowMajor.symm n)]
      simp only [hupd]
      exact if_pos hp
    · intro r n p hp
      rw [resultIdx_row idx lab h0 h1 (S2048.rowMajor.symm n)]
      simp only [hupd]
      exact if_neg hp
    · refine ⟨S2048.rowMajor (ix1 b), List.mem_finRange _, ?_⟩
      show tgt lab (S2048.rowMajor.symm (S2048.rowMajor (ix1 b))) = ix2 b c
      rw [Equiv.symm_apply_apply]
      show ix2 b (lab b) = ix2 b c
      rw [h]
  · -- an update that targets (`b`, `c`) is in row `b`, and then its column is `lab b`, which is not `c`
    rw [if_neg h]
    refine foldl_set_miss (fun n : Fin S2048.numel => tgt lab (S2048.rowMajor.symm n)) _ ?_ _ _ _ ?_
    · intro r n p hp
      rw [resultIdx_row idx lab h0 h1 (S2048.rowMajor.symm n)]
      simp only [hupd]
      exact if_neg hp
    · intro n _ e
      have e0 : S2048.rowMajor.symm n 0 = b := congrFun e 0
      have e1 : lab (S2048.rowMajor.symm n 0) = c := congrFun e 1
      exact h (by rw [← e0]; exact e1)

end Cert.ReferenceIdeal.RefScatter

end
-- ==== Proof.RefValue.lean ====
/-
  The reference, read at one element over the extended reals.

  Its distance matrix at (b, c) is the row distance of embedding row `b` and the normalised proxy row `c`. The
  positive distance is one element of it, gathered at the pair (b, label b); the matrix with `+∞` written at those
  pairs is, at (b, c), the negative candidate; its row minimum is the smallest distance to a class that is not the
  label. Labels are class indices (`LabelsOk`), so the index pairs read and written are the pairs (b, label b)
  themselves: nothing is clamped, wrapped or dropped.
-/
import proofs.«425525_j83502754169123_1_alg».proof.Proof.Gen.ReferenceIdeal.Read
import proofs.«425525_j83502754169123_1_alg».proof.Proof.Spec
import proofs.«425525_j83502754169123_1_alg».proof.Proof.RefGather
import proofs.«425525_j83502754169123_1_alg».proof.Proof.RefScatter
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read
open Cert.ProxyTriplet

/-! ## Words and the index pairs -/

/-- The literal the scatter writes and the row minimum starts from is `+∞`. -/
theorem ofBits_inf_f32 : Ideal.ofBits .f32 0x7F800000#32 = (⊤ : EReal) := by simp [Ideal.ofBits, Ideal.ieee]

/-- A word below `2 ^ 31` read as a signed integer is its value. -/
theorem toInt_ofNat_lt (n : ℕ) (hn : n < 2 ^ 31) : (BitVec.ofNat 32 n).toInt = (n : ℤ) := by
  rw [BitVec.toInt_eq_msb_cond, BitVec.msb_eq_false_iff_two_mul_lt.mpr (by simp only [BitVec.toNat_ofNat]; omega)]
  simp only [BitVec.toNat_ofNat, Bool.false_eq_true, if_false]
  omega

/-- A word that is non-negative as a signed integer is that integer's natural number. -/
theorem toNat_of_toInt_nonneg (l : BitVec 32) (h : 0 ≤ l.toInt) : (l.toNat : ℤ) = l.toInt := by
  rw [BitVec.toInt_eq_toNat_cond] at h ⊢
  split at h <;> simp_all <;> omega

/-- The wrap of a negative index (`x < 0 ? x + n : x`) leaves a non-negative word alone. -/
theorem select_wrap_of_nonneg (l n : BitVec 32) (h : 0 ≤ l.toInt) :
    Scalar.select (IntOp.cmpi .slt l 0#32) (IntOp.addi l n) l = l := by
  have hs : l.slt 0#32 = false := by
    simp only [BitVec.slt, BitVec.toInt_zero, decide_eq_false_iff_not, not_lt]; exact h
  show (if BitVec.ofBool (l.slt 0#32) = 1 then IntOp.addi l n else l) = l
  rw [hs]; exact if_neg (by decide)

/-- Two pieces of width one joined along the second axis: column 0 is the first piece. -/
theorem concat_col0 {α : Type} (A B : S2048x1.Idx → α) (b : Fin 2048) :
    concatenate S2048x2 1 [⟨S2048x1, A⟩, ⟨S2048x1, B⟩] concatenates_S2048x1_S2048x1_S2048x2_d1 (ix2 b (0 : Fin 2))
      = A (ix2 b (0 : Fin 1)) := by
  show A _ = A _
  exact congrArg A (funext fun a => Fin.ext (by match a with | ⟨0, _⟩ => rfl | ⟨1, _⟩ => rfl))

/-- Column 1 is the second piece. -/
theorem concat_col1 {α : Type} (A B : S2048x1.Idx → α) (b : Fin 2048) :
    concatenate S2048x2 1 [⟨S2048x1, A⟩, ⟨S2048x1, B⟩] concatenates_S2048x1_S2048x1_S2048x2_d1 (ix2 b (1 : Fin 2))
      = B (ix2 b (0 : Fin 1)) := by
  show B _ = B _
  exact congrArg B (funext fun a => Fin.ext (by match a with | ⟨0, _⟩ => rfl | ⟨1, _⟩ => rfl))

/-- An array of index pairs that holds, in row `b`, the pair (`b`, the label of `b`). -/
def IsPairs (x2 : S2048.Idx → BitVec 32) (idx : S2048x2.Idx → BitVec 32) : Prop :=
  ∀ b : Fin 2048, idx (ix2 b (0 : Fin 2)) = BitVec.ofNat 32 b.val ∧ idx (ix2 b (1 : Fin 2)) = x2 (ix1 b)

/-- The gather's index array: rows and labels, both left alone by the wrap. -/
theorem pairs_v22 (x2 : S2048.Idx → BitVec 32) (hL : LabelsOk x2) : IsPairs x2 (val_main_v22 (F := Ideal) x2) := by
  intro b
  have hb : (0 : ℤ) ≤ (BitVec.ofNat 32 b.val).toInt := by
    rw [toInt_ofNat_lt b.val (by have := b.isLt; omega)]; exact Int.natCast_nonneg _
  refine ⟨?_, ?_⟩
  · refine (concat_col0 _ _ b).trans ?_
    rw [val_main_v20_apply, val_main_v14_apply, val_main_v11_apply, val_main_v13_apply, val_main_v10_apply,
      val_main_c_apply, val_main_v9_apply]
    exact select_wrap_of_nonneg _ _ hb
  · refine (concat_col1 _ _ b).trans ?_
    rw [val_main_v21_apply, val_main_v19_apply, val_main_v16_apply, val_main_v18_apply, val_main_v15_apply,
      val_main_c_2_apply,
      show idx_main_v21 (ix2 b (0 : Fin 1)) = ix1 b from funext fun a => by match a with | ⟨0, _⟩ => rfl]
    exact select_wrap_of_nonneg _ _ (hL b).1

/-- The scatter's index array, built the same way. -/
theorem pairs_v36 (x2 : S2048.Idx → BitVec 32) (hL : LabelsOk x2) : IsPairs x2 (val_main_v36 (F := Ideal) x2) := by
  intro b
  have hb : (0 : ℤ) ≤ (BitVec.ofNat 32 b.val).toInt := by
    rw [toInt_ofNat_lt b.val (by have := b.isLt; omega)]; exact Int.natCast_nonneg _
  refine ⟨?_, ?_⟩
  · refine (concat_col0 _ _ b).trans ?_
    rw [val_main_v34_apply, val_main_v28_apply, val_main_v25_apply, val_main_v27_apply, val_main_v24_apply,
      val_main_c_4_apply, val_main_v9_apply]
    exact select_wrap_of_nonneg _ _ hb
  · refine (concat_col1 _ _ b).trans ?_
    rw [val_main_v35_apply, val_main_v33_apply, val_main_v30_apply, val_main_v32_apply, val_main_v29_apply,
      val_main_c_6_apply,
      show idx_main_v35 (ix2 b (0 : Fin 1)) = ix1 b from funext fun a => by match a with | ⟨0, _⟩ => rfl]
    exact select_wrap_of_nonneg _ _ (hL b).1

/-- The class a label names: a label word that is a class index, read as a natural number. -/
def labOf (x2 : S2048.Idx → BitVec 32) (hL : LabelsOk x2) (b : Fin 2048) : Fin 100000 :=
  ⟨(x2 (ix1 b)).toNat, by
    have e := toNat_of_toInt_nonneg _ (hL b).1
    have h := (hL b).2
    omega⟩

/-- A label word is the word of the class it names. -/
theorem labOf_spec (x2 : S2048.Idx → BitVec 32) (hL : LabelsOk x2) (b : Fin 2048) :
    x2 (ix1 b) = BitVec.ofNat 32 (labOf x2 hL b).val := by
  apply BitVec.eq_of_toNat_eq
  rw [BitVec.toNat_ofNat]
  exact (Nat.mod_eq_of_lt (x2 (ix1 b)).isLt).symm

/-- A label word equals the word of class `c` exactly when it names `c`: both numbers are below `2 ^ 32`. -/
theorem labOf_eq_iff (x2 : S2048.Idx → BitVec 32) (hL : LabelsOk x2) (b : Fin 2048) (c : Fin 100000) :
    labOf x2 hL b = c ↔ x2 (ix1 b) = BitVec.ofNat 32 c.val := by
  constructor
  · intro h; rw [← h]; exact labOf_spec x2 hL b
  · intro h
    refine Fin.ext ?_
    show (x2 (ix1 b)).toNat = c.val
    rw [h, BitVec.toNat_ofNat]
    exact Nat.mod_eq_of_lt (by have := c.isLt; omega)

/-- The row minimum's fold, with the float minimum written as the order's `min`. -/
theorem fold_minimumf_eq_fold_min {n : ℕ} (s : Finset (Fin n)) (f : Fin n → EReal) :
    s.fold (FloatOps.minimumf (F := Ideal) (φ := .f32)) (⊤ : EReal) f = s.fold min (⊤ : EReal) f := by
  induction s using Finset.induction_on with
  | empty => rfl
  | insert a s ha ih => rw [Finset.fold_insert ha, Finset.fold_insert ha, ih]; rfl

/-! ## The stages -/

/-- The distance matrix at (b, c). -/
theorem dist_apply (x0 : S2048x128.Idx → EReal) (x1 : S100000x128.Idx → EReal) (b : Fin 2048) (c : Fin 100000) :
    val_main_v8 (F := Ideal) x0 x1 (ix2 b c) = dist x0 x1 b c := by
  rw [val_main_v8_apply, val_main_v7_apply, val_main_cst_0_apply, val_main_v6_apply, val_main_v5_apply,
    val_main_cst_apply, val_main_v4_apply]
  simp only [Ideal.subf_def, Ideal.mulf_def, Ideal.ofBits_def]
  unfold Cert.ProxyTriplet.dist rowDist
  refine congrArg (fun s => two - two * s) (Finset.sum_congr rfl fun k _ => ?_)
  rw [val_main_v3_apply, val_main_v2_apply, val_main_v1_apply, val_main_v0_apply, val_main_call0_v2_apply,
    val_main_call0_v1_apply, val_main_call0_cst_apply]
  simp only [Ideal.hostDivf_def, Ideal.hostUnary_sqrt_def, Ideal.ofBits_def, Ideal.ofBits_zero_f32, zero_add]
  have e0 : lidx_main_v4 (ix2 b c) k = ix2 b k :=
    funext fun a => Fin.ext (by match a with | ⟨0, _⟩ => rfl | ⟨1, _⟩ => rfl)
  have e1 : idx_main_v3 (ridx_main_v4 (ix2 b c) k) = ix2 c k :=
    funext fun a => Fin.ext (by match a with | ⟨0, _⟩ => rfl | ⟨1, _⟩ => rfl)
  have e2 : ∀ k' : Fin 128, idx_main_call0_v1 (idx_main_call0_v2 (idx_main_v1 (ix2 c k))) k' = ix2 c k' := fun k' =>
    funext fun a => Fin.ext (by match a with | ⟨0, _⟩ => rfl | ⟨1, _⟩ => rfl)
  rw [e0, e1]
  refine congrArg (fun s => x0 (ix2 b k) * Ideal.div (x1 (ix2 c k)) (Ideal.sqrt s)) (Finset.sum_congr rfl fun k' _ => ?_)
  rw [e2 k', val_main_call0_v0_apply, Ideal.mulf_def]

/-- The gathered positive distance of row `b`. -/
theorem gathered_apply (x0 : S2048x128.Idx → EReal) (x1 : S100000x128.Idx → EReal) (x2 : S2048.Idx → BitVec 32)
    (hL : LabelsOk x2) (b : Fin 2048) : val_main_v23 (F := Ideal) x0 x1 x2 (ix1 b) = pos x0 x1 x2 b := by
  have hd : ∀ (b : Fin 2048) (c : Fin 100000), val_main_v8 (F := Ideal) x0 x1 (ix2 b c) = dist x0 x1 b c :=
    dist_apply x0 x1
  have hp := pairs_v22 x2 hL
  unfold val_main_v23
  -- the distance matrix and the index pairs are carried as opaque functions from here on
  generalize val_main_v8 (F := Ideal) x0 x1 = y at hd ⊢
  generalize val_main_v22 (F := Ideal) x2 = idx at hp ⊢
  rw [RefGather.gather_pair_apply y idx b (labOf x2 hL b) (hp b).1 ((hp b).2.trans (labOf_spec x2 hL b)), hd,
    pos_eq_dist x0 x1 x2 b (labOf x2 hL b) (labOf_spec x2 hL b)]

/-- The distance matrix with `+∞` written at every pair (row, its label), at (b, c). -/
theorem masked_apply (x0 : S2048x128.Idx → EReal) (x1 : S100000x128.Idx → EReal) (x2 : S2048.Idx → BitVec 32)
    (hL : LabelsOk x2) (b : Fin 2048) (c : Fin 100000) :
    val_main_v38 (F := Ideal) x0 x1 x2 (ix2 b c) = negCand x0 x1 x2 b c := by
  have hd : ∀ (b : Fin 2048) (c : Fin 100000), val_main_v8 (F := Ideal) x0 x1 (ix2 b c) = dist x0 x1 b c :=
    dist_apply x0 x1
  have hp := pairs_v36 x2 hL
  have hu : ∀ i : S2048.Idx, val_main_v37 (F := Ideal) i = (⊤ : EReal) := fun i => by
    rw [val_main_v37_apply, val_main_cst_8_apply, Ideal.ofBits_def, ofBits_inf_f32]
  unfold val_main_v38
  -- the distance matrix, the index pairs and the update vector are carried as opaque functions from here on
  generalize val_main_v8 (F := Ideal) x0 x1 = y at hd ⊢
  generalize val_main_v36 (F := Ideal) x2 = idx at hp ⊢
  generalize val_main_v37 (F := Ideal) = upd at hu ⊢
  rw [RefScatter.scatter_pairs_apply y idx upd ⊤ (labOf x2 hL) hu (fun n => (hp n).1)
    (fun n => (hp n).2.trans (labOf_spec x2 hL n)) b c, hd]
  unfold negCand
  by_cases h : labOf x2 hL b = c
  · rw [if_pos h, if_pos ((labOf_eq_iff x2 hL b c).mp h)]
  · rw [if_neg h, if_neg (fun h' => h ((labOf_eq_iff x2 hL b c).mpr h'))]

/-- Its row minimum. -/
theorem minned_apply (x0 : S2048x128.Idx → EReal) (x1 : S100000x128.Idx → EReal) (x2 : S2048.Idx → BitVec 32)
    (hL : LabelsOk x2) (b : Fin 2048) : val_main_v39 (F := Ideal) x0 x1 x2 (ix1 b) = minNeg x0 x1 x2 b := by
  have hR : S2048x100000.Reduces [1] S2048 := by decide
  have hm : ∀ c : Fin 100000, val_main_v38 (F := Ideal) x0 x1 x2 (ix2 b c) = negCand x0 x1 x2 b c :=
    masked_apply x0 x1 x2 hL b
  unfold val_main_v39
  -- the masked matrix is carried as one opaque function from here on
  generalize val_main_v38 (F := Ideal) x0 x1 x2 = y at hm ⊢
  have key := Host.reduce_eq_fold_single (s := S2048x100000) (t := S2048) (u := S_) (a := 1)
    (FloatOps.minimumf (F := Ideal) (φ := .f32)) y (val_main_cst_9 (F := Ideal))
    reducesTo_S2048x100000_S2048_d1 hR h_S_ (ix1 b)
  refine key.trans ?_
  rw [val_main_cst_9_apply, Ideal.ofBits_def, ofBits_inf_f32]
  unfold minNeg
  have e : (y ∘ hR.lift (ix1 b)) = negCand x0 x1 x2 b := funext fun c => by
    rw [Function.comp_apply, show hR.lift (ix1 b) c = ix2 b c from
      funext fun a => Fin.ext (by match a with | ⟨0, _⟩ => rfl | ⟨1, _⟩ => rfl)]
    exact hm c
  rw [e]
  exact fold_minimumf_eq_fold_min (n := 100000) Finset.univ (negCand x0 x1 x2 b)

/-- The reference's result is the loss of its two distance vectors. -/
theorem result_eq (x0 : S2048x128.Idx → EReal) (x1 : S100000x128.Idx → EReal) (x2 : S2048.Idx → BitVec 32) :
    val_main_v45 (F := Ideal) x0 x1 x2
      = lossOf bcast_S_S2048 reducesTo_S2048_S_d0 h_S_ (val_main_v23 (F := Ideal) x0 x1 x2) (val_main_v39 (F := Ideal) x0 x1 x2) := by
  unfold val_main_v45 val_main_v44 val_main_v43 val_main_v42 val_main_v41 val_main_v40 val_main_call1_v0 val_main_call1_cst
    val_main_cst_10 val_main_cst_11 val_main_cst_12 lossOf
  generalize val_main_v23 (F := Ideal) x0 x1 x2 = p
  generalize val_main_v39 (F := Ideal) x0 x1 x2 = q
  rfl

end Cert.ReferenceIdeal.RefValue

end
-- ==== Proof.lean ====
/-
  The proxy triplet loss: the kernel against its reference, over the extended reals.

  Both programs normalise every proxy row by its Euclidean norm, form the distance `2 - 2 * <e_b, p_c>` of every
  batch row `b` to every class `c`, and need two numbers per batch row: the distance to the row's own class (its
  label), and the smallest distance to any other class. The reference reads the first out of the distance matrix at
  the pair (row, label) and takes the row minimum of the matrix with `+∞` written at those pairs. The kernel never
  holds the matrix: it walks over tiles of 2000 classes and keeps, per row, a running maximum of the candidates
  "the distance where the class is the label, `-∞` elsewhere" and a running minimum of the candidates "`+∞` where the
  class is the label, the distance elsewhere". The label of every row is a class index (the precondition says so), so
  exactly one class matches it: the maximum of a family with a single entry above `-∞` is that entry, and the
  running maximum and minimum over the 50 tiles are the maximum and minimum over all 100000 classes. After that both
  programs add the margin, subtract, clamp at zero and average over the batch, which is carried as one function of
  the two distance vectors and never opened.

  The kernel's two fill values are named constants: the finite stand-in for `+∞` denotes `⊤` and the one for `-∞`
  denotes `⊥` at the ideal instance; `preserves` is those four entries.
-/
import proofs.«425525_j83502754169123_1_alg».proof.Defs
import proofs.«425525_j83502754169123_1_alg».proof.Proof.Gen.Kernel
import proofs.«425525_j83502754169123_1_alg».proof.Proof.Gen.Kernel.Skeleton
import proofs.«425525_j83502754169123_1_alg».proof.Proof.Gen.Kernel.Launch
import proofs.«425525_j83502754169123_1_alg».proof.Proof.Gen.Kernel.Points
import proofs.«425525_j83502754169123_1_alg».proof.Proof.Gen.Kernel.Frame
import proofs.«425525_j83502754169123_1_alg».proof.Proof.Gen.KernelIdeal
import proofs.«425525_j83502754169123_1_alg».proof.Proof.Gen.KernelIdeal.Skeleton
import proofs.«425525_j83502754169123_1_alg».proof.Proof.Gen.KernelIdeal.Launch
import proofs.«425525_j83502754169123_1_alg».proof.Proof.Gen.KernelIdeal.Points
import proofs.«425525_j83502754169123_1_alg».proof.Proof.Gen.KernelIdeal.Frame
import proofs.«425525_j83502754169123_1_alg».proof.Proof.Gen.ReferenceIdeal
import proofs.«425525_j83502754169123_1_alg».proof.Proof.Gen.Pre_finite_inputs
import proofs.«425525_j83502754169123_1_alg».proof.Proof.Gen.ReferenceIdeal.Run
import proofs.«425525_j83502754169123_1_alg».proof.Proof.Gen.ReferenceIdeal.Read
import proofs.«425525_j83502754169123_1_alg».proof.Proof.Spec
import proofs.«425525_j83502754169123_1_alg».proof.Proof.PreDecode
import proofs.«425525_j83502754169123_1_alg».proof.Proof.KernelValue
import proofs.«425525_j83502754169123_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.ProxyTriplet

/-- The word-level kernel runs and leaves its arguments alone. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two fill values denote `-∞` and `+∞` at the ideal instance, each at both places the kernel uses it. -/
theorem preserves : Cert.preserves_Kernel_KernelIdeal :=
  ⟨IdealRules.named_const.statement Cert.KernelIdeal.κ "neg_big" .f32 0xF149F2CA#32 ⊥ rfl,
    IdealRules.named_const.statement Cert.KernelIdeal.κ "pos_big" .f32 0x7149F2CA#32 ⊤ rfl,
    IdealRules.named_const.statement Cert.KernelIdeal.κ "pos_big" .f32 0x7149F2CA#32 ⊤ rfl,
    IdealRules.named_const.statement Cert.KernelIdeal.κ "neg_big" .f32 0xF149F2CA#32 ⊥ rfl⟩

/-- From memories that agree on the three arguments, both programs end at the proxy triplet loss of those
    arguments: the kernel by its running maximum and minimum over the class tiles, the reference by its gather and
    its row minimum of the masked matrix, the labels being class indices. -/
theorem algebraic : Cert.algebraic_KernelIdeal_ReferenceIdeal := by
  intro m ρ m' ρ' hpre hagree
  refine ⟨fun c => loss Cert.KernelIdeal.Gen.bcast_S_S2048 Cert.KernelIdeal.Gen.reducesTo_S2048_S_d0 Cert.KernelIdeal.Gen.h_S_
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  have hL : LabelsOk (m ((c.tc : Thread Cert.KernelIdeal.nD Cert.KernelIdeal.τ).loc Cert.KernelIdeal.main_arg2)) :=
    Cert.Pre_finite_inputs.Decode.labelsOk_of_pre (F := Ideal) _ _ _ (hpre c)
  rw [Cert.ReferenceIdeal.Read.val_main_v45_eq, Cert.ReferenceIdeal.RefValue.result_eq, (hagree c).1, (hagree c).2.1,
    (hagree c).2.2]
  unfold loss
  refine congrArg₂ (lossOf _ _ _) (funext fun i => ?_) (funext fun i => ?_)
  · obtain ⟨b, rfl⟩ : ∃ b : Fin 2048, i = ix1 b := ⟨i 0, eq_ix1 i⟩
    exact (Cert.ReferenceIdeal.RefValue.gathered_apply _ _ _ hL b).trans rfl
  · obtain ⟨b, rfl⟩ : ∃ b : Fin 2048, i = ix1 b := ⟨i 0, eq_ix1 i⟩
    exact (Cert.ReferenceIdeal.RefValue.minned_apply _ _ _ hL b).trans rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
